-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x300x3136 : Shape := ⟨3, ![64, 300, 3136]⟩
abbrev S3136x64 : Shape := ⟨2, ![3136, 64]⟩
abbrev S64 : Shape := ⟨1, ![64]⟩
abbrev S64x21 : Shape := ⟨2, ![64, 21]⟩
abbrev S21 : Shape := ⟨1, ![21]⟩
abbrev S_ : Shape := ⟨0, ![]⟩

class Facts : Prop where
  bcast_S_S64x300x3136 : S_.BroadcastsInDim S64x300x3136 (![] : Fin 0 → Fin S64x300x3136.rank)
  reducesTo_S64x300x3136_S_d0_1_2 : S64x300x3136.ReducesTo [0, 1, 2] S_
  h_S_ : 0 < S_.numel
  bcast_S_S3136x64 : S_.BroadcastsInDim S3136x64 (![] : Fin 0 → Fin S3136x64.rank)
  reducesTo_S3136x64_S_d0_1 : S3136x64.ReducesTo [0, 1] S_
  bcast_S_S64 : S_.BroadcastsInDim S64 (![] : Fin 0 → Fin S64.rank)
  reducesTo_S64_S_d0 : S64.ReducesTo [0] S_
  bcast_S_S64x21 : S_.BroadcastsInDim S64x21 (![] : Fin 0 → Fin S64x21.rank)
  reducesTo_S64x21_S_d0_1 : S64x21.ReducesTo [0, 1] S_
  bcast_S_S21 : S_.BroadcastsInDim S21 (![] : Fin 0 → Fin S21.rank)
  reducesTo_S21_S_d0 : S21.ReducesTo [0] S_

variable [Facts]

def fn_part1 {F : FTy → Type} [FloatOps F] (main_arg4 : FVec F S21 .f32) (main_v13 : IVec S_ 1) (main_v16 : IVec S64x21 1) : IVec S_ 1 :=
  let main_c_5 : IVec S_ 1 := constantI S_ 1 1#1
  let main_v17 : IVec S_ 1 := (fun x v => Host.reduce IntOp.andi x v reducesTo_S64x21_S_d0_1 h_S_) main_v16 main_c_5
  let main_v18 : IVec S_ 1 := andi main_v13 main_v17
  let main_v19 : FVec F S21 .f32 := Host.absf main_arg4
  let main_cst_6 : FVec F S_ .f32 := constant S_ .f32 0x7F800000#32
  let main_v20 : FVec F S21 .f32 := broadcastInDim S21 ![] bcast_S_S21 main_cst_6
  let main_v21 : IVec S21 1 := cmpf .olt main_v19 main_v20
  let main_c_7 : IVec S_ 1 := constantI S_ 1 1#1
  let main_v22 : IVec S_ 1 := (fun x v => Host.reduce IntOp.andi x v reducesTo_S21_S_d0 h_S_) main_v21 main_c_7
  let main_v23 : IVec S_ 1 := andi main_v18 main_v22
  main_v23

def fn {F : FTy → Type} [FloatOps F] (main_arg0 : FVec F S64x300x3136 .f32) (main_arg1 : FVec F S3136x64 .f32) (main_arg2 : FVec F S64 .f32) (main_arg3 : FVec F S64x21 .f32) (main_arg4 : FVec F S21 .f32) (main_arg5 : IVec S64 32) : IVec S_ 1 :=
  let main_v0 : FVec F S64x300x3136 .f32 := Host.absf main_arg0
  let main_cst : FVec F S_ .f32 := constant S_ .f32 0x7F800000#32
  let main_v1 : FVec F S64x300x3136 .f32 := broadcastInDim S64x300x3136 ![] bcast_S_S64x300x3136 main_cst
  let main_v2 : IVec S64x300x3136 1 := cmpf .olt main_v0 main_v1
  let main_c : IVec S_ 1 := constantI S_ 1 1#1
  let main_v3 : IVec S_ 1 := (fun x v => Host.reduce IntOp.andi x v reducesTo_S64x300x3136_S_d0_1_2 h_S_) main_v2 main_c
  let main_v4 : FVec F S3136x64 .f32 := Host.absf main_arg1
  let main_cst_0 : FVec F S_ .f32 := constant S_ .f32 0x7F800000#32
  let main_v5 : FVec F S3136x64 .f32 := broadcastInDim S3136x64 ![] bcast_S_S3136x64 main_cst_0
  let main_v6 : IVec S3136x64 1 := cmpf .olt main_v4 main_v5
  let main_c_1 : IVec S_ 1 := constantI S_ 1 1#1
  let main_v7 : IVec S_ 1 := (fun x v => Host.reduce IntOp.andi x v reducesTo_S3136x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x21 .f32 := Host.absf main_arg3
  let main_cst_4 : FVec F S_ .f32 := constant S_ .f32 0x7F800000#32
  let main_v15 : FVec F S64x21 .f32 := broadcastInDim S64x21 ![] bcast_S_S64x21 main_cst_4
  let main_v16 : IVec S64x21 1 := cmpf .olt main_v14 main_v15
  fn_part1 (F := F) main_arg4 main_v13 main_v16
-- ==== Kernel.lean ====
abbrev S64x300x3136 : Shape := ⟨3, ![64, 300, 3136]⟩
abbrev S3136x64 : Shape := ⟨2, ![3136, 64]⟩
abbrev S64 : Shape := ⟨1, ![64]⟩
abbrev S64x21 : Shape := ⟨2, ![64, 21]⟩
abbrev S21 : Shape := ⟨1, ![21]⟩
abbrev S64x128x21 : Shape := ⟨3, ![64, 128, 21]⟩
abbrev S8x128x3136 : Shape := ⟨3, ![8, 128, 3136]⟩
abbrev S8x128x21 : Shape := ⟨3, ![8, 128, 21]⟩
abbrev S1024x3136 : Shape := ⟨2, ![1024, 3136]⟩
abbrev S1024x64 : Shape := ⟨2, ![1024, 64]⟩
abbrev S1x64 : Shape := ⟨2, ![1, 64]⟩
abbrev S1024x21 : Shape := ⟨2, ![1024, 21]⟩
abbrev S1x21 : Shape := ⟨2, ![1, 21]⟩
abbrev S1 : Shape := ⟨1, ![1]⟩
abbrev S8 : Shape := ⟨1, ![8]⟩
abbrev S8x1x1 : Shape := ⟨3, ![8, 1, 1]⟩

abbrev nBuf : Space → Nat
  | .hbm => 8
  | .vmem => 8
  | .smem => 1
  | _ => 0

abbrev bufTy : (tb : Table) → Fin (tcTables nBuf tb) → BufTy
  | .hbm, ⟨0, _⟩ => ⟨S64x300x3136, .f32⟩
  | .hbm, ⟨1, _⟩ => ⟨S3136x64, .f32⟩
  | .hbm, ⟨2, _⟩ => ⟨S64, .f32⟩
  | .hbm, ⟨3, _⟩ => ⟨S64x21, .f32⟩
  | .hbm, ⟨4, _⟩ => ⟨S21, .f32⟩
  | .hbm, ⟨5, _⟩ => ⟨S3136x64, .bf16⟩
  | .hbm, ⟨6, _⟩ => ⟨S64x21, .bf16⟩
  | .hbm, ⟨7, _⟩ => ⟨S64x128x21, .f32⟩
  | .local _ .vmem, ⟨0, _⟩ => ⟨S8x128x3136, .f32⟩
  | .local _ .vmem, ⟨1, _⟩ => ⟨S8x128x3136, .f32⟩
  | .local _ .vmem, ⟨2, _⟩ => ⟨S3136x64, .bf16⟩
  | .local _ .vmem, ⟨3, _⟩ => ⟨S64, .f32⟩
  | .local _ .vmem, ⟨4, _⟩ => ⟨S64x21, .bf16⟩
  | .local _ .vmem, ⟨5, _⟩ => ⟨S21, .f32⟩
  | .local _ .vmem, ⟨6, _⟩ => ⟨S8x128x21, .f32⟩
  | .local _ .vmem, ⟨7, _⟩ => ⟨S8x128x21, .f32⟩
  | .local _ .smem, ⟨0, _⟩ => ⟨S64, .i32⟩
  | _, _ => ⟨S64x300x3136, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) (c0_i32 : BitVec 32) : Fin 1 → Nat :=
  let arg0 : BitVec 32 := BitVec.ofNat 32 (i 0).val
  let c8_i32 : BitVec 32 := 8#32
  let v0 : BitVec 32 := Scalar.muli arg0 c8_i32
  let v31 : BitVec 32 := Scalar.addi v0 c0_i32
  let v32 : Index := Scalar.indexCast v31
  ![v32.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x128x3136 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3136x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x21 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S21 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8x128x21 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bitsLt_bf16_f32 : FTy.bits .bf16 < FTy.bits .f32
  inb_S8x128x3136_S8x128x3136_0_0_0 : ∀ a, (![0, 0, 0] : Fin 3 → Nat) a + S8x128x3136.size a ≤ S8x128x3136.size a
  h_S8x128x3136 : 0 < S8x128x3136.numel
  shapeCasts_S8x128x3136_S1024x3136 : S8x128x3136.ShapeCasts S1024x3136
  inb_S3136x64_S3136x64_0_0 : ∀ a, (![0, 0] : Fin 2 → Nat) a + S3136x64.size a ≤ S3136x64.size a
  h_S3136x64 : 0 < S3136x64.numel
  shapeCasts_S3136x64_S3136x64 : S3136x64.ShapeCasts S3136x64
  inb_S64_S64_0 : ∀ a, (![0] : Fin 1 → Nat) a + S64.size a ≤ S64.size a
  h_S64 : 0 < S64.numel
  shapeCasts_S64_S1x64 : S64.ShapeCasts S1x64
  broadcasts_S1x64_S1024x64 : S1x64.Broadcasts S1024x64
  inb_S64x21_S64x21_0_0 : ∀ a, (![0, 0] : Fin 2 → Nat) a + S64x21.size a ≤ S64x21.size a
  h_S64x21 : 0 < S64x21.numel
  shapeCasts_S64x21_S64x21 : S64x21.ShapeCasts S64x21
  inb_S21_S21_0 : ∀ a, (![0] : Fin 1 → Nat) a + S21.size a ≤ S21.size a
  h_S21 : 0 < S21.numel
  shapeCasts_S21_S1x21 : S21.ShapeCasts S1x21
  broadcasts_S1x21_S1024x21 : S1x21.Broadcasts S1024x21
  shapeCasts_S1024x21_S8x128x21 : S1024x21.ShapeCasts S8x128x21
  iota_S8x128x21_d1_w32 : S8x128x21.Iotas .tc 32 [1]
  numel1_S1 : S1.numel = 1
  concatenates_S1_S1_S1_S1_S1_S1_S1_S1_S8_d0 : Shape.Concatenates [S1, S1, S1, S1, S1, S1, S1, S1] S8 0
  shapeCasts_S8_S8x1x1 : S8.ShapeCasts S8x1x1
  broadcasts_S8x1x1_S8x128x21 : S8x1x1.Broadcasts S8x128x21
  inb_S8x128x21_S8x128x21_0_0_0 : ∀ a, (![0, 0, 0] : Fin 3 → Nat) a + S8x128x21.size a ≤ S8x128x21.size a
  h_S8x128x21 : 0 < S8x128x21.numel
  dot_S1024x3136_S3136x64_S1024x64_1_0_0_1_n_n_wf : DotDims.WF S1024x3136 S3136x64 S1024x64 [1] [0] [0] [1] [] []
  dot_S1024x64_S64x21_S1024x21_1_0_0_1_n_n_wf : DotDims.WF S1024x64 S64x21 S1024x21 [1] [0] [0] [1] [] []
  hrank0 : 0 < grid0.rank
  k0_off1_inb : ∀ i : grid0.Coords, ∀ (r : Fin 8), ∀ a, (k0_off1 i (BitVec.ofNat 32 r.val)) a + S1.size a ≤ S64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S8x128x3136.size a < S64x300x3136.size a
  hwx0_0 : ∀ i : grid0.Coords, EltTy.bits .f32 = 32 ∨ (Rect.unit (s := S64x300x3136) (fun a => cc0_transform_0 i a * S8x128x3136.size a) (fun a => (Pipeline.Clip.of (cc0_transform_0 i a) (S8x128x3136.size a) (S64x300x3136.size a)).extent (S8x128x3136.size a)) fun a => Pipeline.Clip.inb (Pipeline.Clip.ok_of (hstart0_0 i a))).WholeWords (EltTy.packing .f32)
  hwxs0_0 : ∀ i : grid0.Coords, EltTy.bits .f32 = 32 ∨ (Rect.unit (s := S8x128x3136) (fun _ => 0) (fun a => (Pipeline.Clip.of (cc0_transform_0 i a) (S8x128x3136.size a) (S64x300x3136.size a)).extent (S8x128x3136.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3136x64.size a ≤ S3136x64.size a
  hwx0_1 : ∀ i : grid0.Coords, EltTy.bits .bf16 = 32 ∨ (Rect.block (s := S3136x64) S3136x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x21.size a ≤ S64x21.size a
  hwx0_3 : ∀ i : grid0.Coords, EltTy.bits .bf16 = 32 ∨ (Rect.block (s := S64x21) S64x21.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S21.size a ≤ S21.size a
  hwx0_4 : ∀ i : grid0.Coords, EltTy.bits .f32 = 32 ∨ (Rect.block (s := S21) S21.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x128x21.size a ≤ S64x128x21.size a
  hwx0_5 : ∀ i : grid0.Coords, EltTy.bits .f32 = 32 ∨ (Rect.block (s := S64x128x21) S8x128x21.size (cc0_transform_5 i) (hinb0_5 i)).WholeWords (EltTy.packing .f32)

variable [Facts₀]

def dot_S1024x3136_S3136x64_S1024x64_1_0_0_1_n_n : DotDims S1024x3136 S3136x64 S1024x64 where
  lhsContracting := [1]
  rhsContracting := [0]
  lhsNonContracting := [0]
  rhsNonContracting := [1]
  lhsBatch := []
  rhsBatch := []
  wf := dot_S1024x3136_S3136x64_S1024x64_1_0_0_1_n_n_wf
def dot_S1024x64_S64x21_S1024x21_1_0_0_1_n_n : DotDims S1024x64 S64x21 S1024x21 where
  lhsContracting := [1]
  rhsContracting := [0]
  lhsNonContracting := [0]
  rhsNonContracting := [1]
  lhsBatch := []
  rhsBatch := []
  wf := dot_S1024x64_S64x21_S1024x21_1_0_0_1_n_n_wf

abbrev clip0_0 (i : grid0.Coords) : Fin S64x300x3136.rank → Pipeline.Clip := fun a => Pipeline.Clip.of (cc0_transform_0 i a) (S8x128x3136.size a) (S64x300x3136.size a)
abbrev spec0_0 : Pipeline.WinSpec sig grid0.rank :=
  Pipeline.WinSpec.ofSpec (Memref.whole main_arg0) S8x128x3136.size reads0_0 false false 2 stage0_0 sem0_0 nbuf0_0 hstage0_0

abbrev spec0_1 : Pipeline.WinSpec sig grid0.rank :=
  Pipeline.WinSpec.ofSpec (Memref.whole main_v0) S3136x64.size reads0_1 false true 1 stage0_1 sem0_1 nbuf0_1 hstage0_1

abbrev spec0_2 : Pipeline.WinSpec sig grid0.rank :=
  Pipeline.WinSpec.ofSpec (Memref.whole main_arg2) S64.size reads0_2 false true 1 stage0_2 sem0_2 nbuf0_2 hstage0_2

abbrev spec0_3 : Pipeline.WinSpec sig grid0.rank :=
  Pipeline.WinSpec.ofSpec (Memref.whole main_v1) S64x21.size reads0_3 false true 1 stage0_3 sem0_3 nbuf0_3 hstage0_3

abbrev spec0_4 : Pipeline.WinSpec sig grid0.rank :=
  Pipeline.WinSpec.ofSpec (Memref.whole main_arg4) S21.size reads0_4 false true 1 stage0_4 sem0_4 nbuf0_4 hstage0_4

abbrev spec0_5 : Pipeline.WinSpec sig grid0.rank :=
  Pipeline.WinSpec.ofSpec (Memref.whole main_v2) S8x128x21.size reads0_5 true false 2 stage0_5 sem0_5 nbuf0_5 hstage0_5

abbrev spec0 : Fin 6 → Pipeline.WinSpec sig grid0.rank := fun | 0 => spec0_0 | 1 => spec0_1 | 2 => spec0_2 | 3 => spec0_3 | 4 => spec0_4 | 5 => spec0_5 | ⟨_ + 6, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | ⟨_ + 6, h⟩ => absurd h (Nat.not_lt.2 (Nat.le_add_left _ _))
abbrev ix0 (pf : pre0.Contents (Elt F)) : (w : Fin 6) → grid0.Coords → Fin (spec0 w).shape.rank → Nat := fun | 0 => cc0_transform_0 | 1 => cc0_transform_1 | 2 => cc0_transform_2 | 3 => cc0_transform_3 | 4 => cc0_transform_4 | 5 => cc0_transform_5 | ⟨_ + 6, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | 4 => hreads0_4 | 5 => hreads0_5 | ⟨_ + 6, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
abbrev clip0 (pf : pre0.Contents (Elt F)) : (w : Fin 6) → grid0.Coords → Fin (spec0 w).shape.rank → Pipeline.Clip := fun | 0 => clip0_0 | 1 => fun _ _ => none | 2 => fun _ _ => none | 3 => fun _ _ => none | 4 => fun _ _ => none | 5 => fun _ _ => none | ⟨_ + 6, h⟩ => absurd h (Nat.not_lt.2 (Nat.le_add_left _ _))
theorem hclip0 : ∀ (pf : pre0.Contents (Elt F)), ok0 pf → ∀ w (i : grid0.Coords) a, Pipeline.Clip.Ok (ix0 pf w i a) ((spec0 w).size a) ((spec0 w).shape.size a) (clip0 pf w i a) :=
  fun _ _ => fun | 0 => fun i a => Pipeline.Clip.ok_of (hstart0_0 i a) | 1 => hinb0_1 | 2 => hinb0_2 | 3 => hinb0_3 | 4 => hinb0_4 | 5 => hinb0_5 | ⟨_ + 6, h⟩ => absurd h (Nat.not_lt.2 (Nat.le_add_left _ _))
theorem hwx0 : ∀ (pf : pre0.Contents (Elt F)) (hok : ok0 pf) w (i : grid0.Coords), (spec0 w).elt.bits = 32 ∨ (Rect.unit (fun a => ix0 pf w i a * (spec0 w).size a)
    (fun a => (clip0 pf w i a).extent ((spec0 w).size a)) fun a => Pipeline.Clip.inb (hclip0 pf hok w i a)).WholeWords (spec0 w).elt.packing :=
  fun _ _ => fun | 0 => hwx0_0 | 1 => hwx0_1 | 2 => hwx0_2 | 3 => hwx0_3 | 4 => hwx0_4 | 5 => hwx0_5 | ⟨_ + 6, h⟩ => absurd h (Nat.not_lt.2 (Nat.le_add_left _ _))
theorem hwxs0 : ∀ (pf : pre0.Contents (Elt F)) (hok : ok0 pf) w (i : grid0.Coords), (spec0 w).elt.bits = 32 ∨ (Rect.unit (s := (spec0 w).block) (fun _ => 0)
    (fun a => (clip0 pf w i a).extent ((spec0 w).size a)) fun a => (Nat.zero_add _).trans_le (Pipeline.Clip.extent_le (hclip0 pf hok w i a))).WholeWords (spec0 w).elt.packing :=
  fun _ _ => fun | 0 => hwxs0_0 | 1 => fun _ => .inr (Rect.wholeWords_whole _ _) | 2 => fun _ => .inr (Rect.wholeWords_whole _ _) | 3 => fun _ => .inr (Rect.wholeWords_whole _ _) | 4 => fun _ => .inr (Rect.wholeWords_whole _ _) | 5 => fun _ => .inr (Rect.wholeWords_whole _ _) | ⟨_ + 6, h⟩ => absurd h (Nat.not_lt.2 (Nat.le_add_left _ _))
abbrev loose0 : Fin 6 → Bool := fun | 0 => true | 1 => false | 2 => false | 3 => false | 4 => false | 5 => false | ⟨_ + 6, h⟩ => absurd h (Nat.not_lt.2 (Nat.le_add_left _ _))
theorem hstage0 : ∀ w s, ((spec0 w).stage s).IsWhole := fun | 0 => hstage0_0 | 1 => hstage0_1 | 2 => hstage0_2 | 3 => hstage0_3 | 4 => hstage0_4 | 5 => hstage0_5 | ⟨_ + 6, h⟩ => absurd h (Nat.not_lt.2 (Nat.le_add_left _ _))

class Facts : Prop extends Facts₀ where
  harr0 : ∀ w, (spec0 w).arr.IsWhole

variable [Facts]
-- ==== ReferenceIdeal.lean ====
abbrev S64x300x3136 : Shape := ⟨3, ![64, 300, 3136]⟩
abbrev S3136x64 : Shape := ⟨2, ![3136, 64]⟩
abbrev S64 : Shape := ⟨1, ![64]⟩
abbrev S64x21 : Shape := ⟨2, ![64, 21]⟩
abbrev S21 : Shape := ⟨1, ![21]⟩
abbrev S64x128x3136 : Shape := ⟨3, ![64, 128, 3136]⟩
abbrev S64x128x64 : Shape := ⟨3, ![64, 128, 64]⟩
abbrev S1x1x64 : Shape := ⟨3, ![1, 1, 64]⟩
abbrev S_ : Shape := ⟨0, ![]⟩
abbrev S64x128x21 : Shape := ⟨3, ![64, 128, 21]⟩
abbrev S1x1x21 : Shape := ⟨3, ![1, 1, 21]⟩
abbrev S128 : Shape := ⟨1, ![128]⟩
abbrev S1x128 : Shape := ⟨2, ![1, 128]⟩
abbrev S64x1 : Shape := ⟨2, ![64, 1]⟩
abbrev S64x128 : Shape := ⟨2, ![64, 128]⟩
abbrev S64x128x1 : Shape := ⟨3, ![64, 128, 1]⟩

abbrev nBuf : Space → Nat
  | .hbm => 43
  | .vmem => 0
  | .smem => 0
  | _ => 0

abbrev bufTy : (tb : Table) → Fin (tcTables nBuf tb) → BufTy
  | .hbm, ⟨0, _⟩ => ⟨S64x300x3136, .f32⟩
  | .hbm, ⟨1, _⟩ => ⟨S3136x64, .f32⟩
  | .hbm, ⟨2, _⟩ => ⟨S64, .f32⟩
  | .hbm, ⟨3, _⟩ => ⟨S64x21, .f32⟩
  | .hbm, ⟨4, _⟩ => ⟨S21, .f32⟩
  | .hbm, ⟨5, _⟩ => ⟨S64, .i32⟩
  | .hbm, ⟨6, _⟩ => ⟨S64x128x3136, .f32⟩
  | .hbm, ⟨7, _⟩ => ⟨S64x128x64, .f32⟩
  | .hbm, ⟨8, _⟩ => ⟨S1x1x64, .f32⟩
  | .hbm, ⟨9, _⟩ => ⟨S64x128x64, .f32⟩
  | .hbm, ⟨10, _⟩ => ⟨S64x128x64, .f32⟩
  | .hbm, ⟨11, _⟩ => ⟨S_, .f32⟩
  | .hbm, ⟨12, _⟩ => ⟨S64x128x64, .f32⟩
  | .hbm, ⟨13, _⟩ => ⟨S64x128x64, .i1⟩
  | .hbm, ⟨14, _⟩ => ⟨S_, .f32⟩
  | .hbm, ⟨15, _⟩ => ⟨S64x128x64, .f32⟩
  | .hbm, ⟨16, _⟩ => ⟨S64x128x64, .f32⟩
  | .hbm, ⟨17, _⟩ => ⟨S64x128x64, .f32⟩
  | .hbm, ⟨18, _⟩ => ⟨S64x128x21, .f32⟩
  | .hbm, ⟨19, _⟩ => ⟨S1x1x21, .f32⟩
  | .hbm, ⟨20, _⟩ => ⟨S64x128x21, .f32⟩
  | .hbm, ⟨21, _⟩ => ⟨S64x128x21, .f32⟩
  | .hbm, ⟨22, _⟩ => ⟨S_, .f32⟩
  | .hbm, ⟨23, _⟩ => ⟨S64x128x21, .f32⟩
  | .hbm, ⟨24, _⟩ => ⟨S64x128x21, .i1⟩
  | .hbm, ⟨25, _⟩ => ⟨S_, .f32⟩
  | .hbm, ⟨26, _⟩ => ⟨S64x128x21, .f32⟩
  | .hbm, ⟨27, _⟩ => ⟨S64x128x21, .f32⟩
  | .hbm, ⟨28, _⟩ => ⟨S64x128x21, .f32⟩
  | .hbm, ⟨29, _⟩ => ⟨S_, .i32⟩
  | .hbm, ⟨30, _⟩ => ⟨S64, .i32⟩
  | .hbm, ⟨31, _⟩ => ⟨S64, .i32⟩
  | .hbm, ⟨32, _⟩ => ⟨S128, .i32⟩
  | .hbm, ⟨33, _⟩ => ⟨S1x128, .i32⟩
  | .hbm, ⟨34, _⟩ => ⟨S64x1, .i32⟩
  | .hbm, ⟨35, _⟩ => ⟨S64x128, .i32⟩
  | .hbm, ⟨36, _⟩ => ⟨S64x128, .i32⟩
  | .hbm, ⟨37, _⟩ => ⟨S64x128, .i1⟩
  | .hbm, ⟨38, _⟩ => ⟨S64x128x1, .i1⟩
  | .hbm, ⟨39, _⟩ => ⟨S_, .f32⟩
  | .hbm, ⟨40, _⟩ => ⟨S64x128x21, .i1⟩
  | .hbm, ⟨41, _⟩ => ⟨S64x128x21, .f32⟩
  | .hbm, ⟨42, _⟩ => ⟨S64x128x21, .f32⟩
  | _, _ => ⟨S64x300x3136, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_call2_v0 : Ref sig .tc := ⟨.hbm, 40, rfl⟩
abbrev main_call2_v1 : Ref sig .tc := ⟨.hbm, 41, rfl⟩
abbrev main_v28 : Ref sig .tc := ⟨.hbm, 42, rfl⟩

abbrev nD : Nat := 1
abbrev τ : Topo := Topo.v7x

variable {F : FTy → Type} [FloatOps F]

class Facts₀ : Prop where
  slices_S64x300x3136_S64x128x3136_0_0_0 : S64x300x3136.Slices ![0, 0, 0] S64x128x3136
  bcast_S64_S1x1x64_2 : S64.BroadcastsInDim S1x1x64 (![2] : Fin 1 → Fin S1x1x64.rank)
  bcast_S1x1x64_S64x128x64_0_1_2 : S1x1x64.BroadcastsInDim S64x128x64 (![0, 1, 2] : Fin 3 → Fin S64x128x64.rank)
  bcast_S_S64x128x64 : S_.BroadcastsInDim S64x128x64 (![] : Fin 0 → Fin S64x128x64.rank)
  bcast_S21_S1x1x21_2 : S21.BroadcastsInDim S1x1x21 (![2] : Fin 1 → Fin S1x1x21.rank)
  bcast_S1x1x21_S64x128x21_0_1_2 : S1x1x21.BroadcastsInDim S64x128x21 (![0, 1, 2] : Fin 3 → Fin S64x128x21.rank)
  bcast_S_S64x128x21 : S_.BroadcastsInDim S64x128x21 (![] : Fin 0 → Fin S64x128x21.rank)
  bcast_S_S64 : S_.BroadcastsInDim S64 (![] : Fin 0 → Fin S64.rank)
  bcast_S128_S1x128_1 : S128.BroadcastsInDim S1x128 (![1] : Fin 1 → Fin S1x128.rank)
  bcast_S64_S64x1_0 : S64.BroadcastsInDim S64x1 (![0] : Fin 1 → Fin S64x1.rank)
  bcast_S1x128_S64x128_0_1 : S1x128.BroadcastsInDim S64x128 (![0, 1] : Fin 2 → Fin S64x128.rank)
  bcast_S64x1_S64x128_0_1 : S64x1.BroadcastsInDim S64x128 (![0, 1] : Fin 2 → Fin S64x128.rank)
  bcast_S64x128_S64x128x1_0_1 : S64x128.BroadcastsInDim S64x128x1 (![0, 1] : Fin 2 → Fin S64x128x1.rank)
  bcast_S64x128x1_S64x128x21_0_1_2 : S64x128x1.BroadcastsInDim S64x128x21 (![0, 1, 2] : Fin 3 → Fin S64x128x21.rank)
  dot_S64x128x3136_S3136x64_S64x128x64_2_0_01_1_n_n_wf : DotDims.WF S64x128x3136 S3136x64 S64x128x64 [2] [0] [0, 1] [1] [] []
  dot_S64x128x64_S64x21_S64x128x21_2_0_01_1_n_n_wf : DotDims.WF S64x128x64 S64x21 S64x128x21 [2] [0] [0, 1] [1] [] []

variable [Facts₀]

def dot_S64x128x3136_S3136x64_S64x128x64_2_0_01_1_n_n : DotDims S64x128x3136 S3136x64 S64x128x64 where
  lhsContracting := [2]
  rhsContracting := [0]
  lhsNonContracting := [0, 1]
  rhsNonContracting := [1]
  lhsBatch := []
  rhsBatch := []
  wf := dot_S64x128x3136_S3136x64_S64x128x64_2_0_01_1_n_n_wf
def dot_S64x128x64_S64x21_S64x128x21_2_0_01_1_n_n : DotDims S64x128x64 S64x21 S64x128x21 where
  lhsContracting := [2]
  rhsContracting := [0]
  lhsNonContracting := [0, 1]
  rhsNonContracting := [1]
  lhsBatch := []
  rhsBatch := []
  wf := dot_S64x128x64_S64x21_S64x128x21_2_0_01_1_n_n_wf

class Facts : Prop extends Facts₀ where

variable [Facts]
-- ==== Proof.WordRegionEntry.lean ====
/-
  What the program's one region finds when it is entered, and what its windows' buffers hold point by point.

  Before the region the host changes the format of the two weight matrices; every other argument reaches the region as
  launched. The region's grid has eight points, one per block of eight batch entries. The feature window's block at
  point t is batch entries 8t … 8t+7, regions 0 … 127, all 3136 features: the block index on the region axis is always 0,
  so although 300 is not a multiple of 128 no block ever reaches the end of that axis and no transfer is ever cut. The
  two weight matrices and the two bias vectors are fetched once, whole, and stay in their buffers. The result window's
  block at point t is written back at every point. The count table sits in scalar memory for the whole region.
-/
import proofs.«431472_j57131654971429_3_alg».proof.Proof.Gen.Kernel.Launch
import proofs.«431472_j57131654971429_3_alg».proof.Proof.Gen.Kernel.Skeleton
import Idealize.ShloMosaic.Lib.Pipeline.Frame
import Idealize.ShloMosaic.Lib.Pipeline.FrameBody
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- A core's buffers when the region is entered: the launch contents after the host's two format changes. -/
abbrev entry (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- The program is those two operations and then the region. -/
theorem hmain (𝒱₀ : Variants) :
    Pipeline.HMainP (Ix := Unit) (Name := ℕ) (U := UR sig nD τ) (Lvl := ℕ) pcfgs 0 defs₀ 𝒱₀ m (main (F := F)) (entry m) :=
  Pipeline.hmainP_prefix pcfgs 0 defs₀ 𝒱₀ m main hostOps0 hostOps0_sub hostOps0_fresh main_chain

/-- A buffer that is neither converted weight matrix is found as launched. -/
theorem entry_kept (c : Dev nD) (b : Ref sig .tc) (h0 : b ≠ main_v0) (h1 : b ≠ main_v1) :
    entry m c b = m ((c : Thread nD τ).loc b) :=
  StableHlo.after_of_forall_not_mem (b := Proc.devRef .tc b) _ _ (List.forall_iff_forall_mem.mp (by
    simp only [hostOps0, List.Forall, StableHlo.unary_writes, Finset.mem_singleton]
    exact ⟨StableHlo.devRef_ne_of_ne h0, StableHlo.devRef_ne_of_ne h1⟩))

theorem entry_arg0 (c : Dev nD) : entry m c main_arg0 = m ((c : Thread nD τ).loc main_arg0) := entry_kept m c _ (by decide) (by decide)
theorem entry_arg1 (c : Dev nD) : entry m c main_arg1 = m ((c : Thread nD τ).loc main_arg1) := entry_kept m c _ (by decide) (by decide)
theorem entry_arg2 (c : Dev nD) : entry m c main_arg2 = m ((c : Thread nD τ).loc main_arg2) := entry_kept m c _ (by decide) (by decide)
theorem entry_arg3 (c : Dev nD) : entry m c main_arg3 = m ((c : Thread nD τ).loc main_arg3) := entry_kept m c _ (by decide) (by decide)
theorem entry_arg4 (c : Dev nD) : entry m c main_arg4 = m ((c : Thread nD τ).loc main_arg4) := entry_kept m c _ (by decide) (by decide)
theorem entry_arg5 (c : Dev nD) : entry m c main_arg5 = m ((c : Thread nD τ).loc main_arg5) := entry_kept m c _ (by decide) (by decide)

/-! ## The count table -/

/-- The table's contents when the region is entered (there is one device). -/
def counts : pre0.Contents (Elt F) := fun j => entry m (0 : Dev nD) (pre0.ref j)

theorem entry_pre (c : Dev nD) (j : Fin 1) : entry m c (pre0.ref j) = counts m j := by
  obtain rfl : c = 0 := Subsingleton.elim _ _; rfl

/-- No index map reads the table, so every contents of it is admissible. -/
abbrev adm : (pcfg0 (F := F)).Adm := ⟨counts m, by show ok0 (F := F) (counts m); rw [ok0]; trivial⟩
/-- The pipeline at the table's contents. -/
abbrev cfgM : Pipeline.Cfg sig Λ₀ := cfg0 (adm m)

/-- The table as the body is handed it: its whole buffer as a memref. -/
abbrev countsM : Memref sig .tc .smem S64 .i32 := Memref.whole main_arg5
abbrev hcountsM : (countsM).IsWhole := Memref.isWhole_whole _

/-- A table memref's buffer on a core, and that buffer held at half the full share: the body may load its words and
    cannot store into it. -/
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

/-- What the region hands the body of the table: that one points-to. -/
theorem tables_eq (c : Dev nD) : (Pipeline.ΦT pre0 (counts m) c : sProp 𝕄) = tbPt c countsM (counts m 0) := by
  unfold Pipeline.ΦT Pipeline.prefHeld
  rw [show (Finset.univ : Finset (Fin 1)) = {(0 : Fin 1)} from by decide, bigSep_singleton]
  rfl

/-! ## The schedule -/

/-- No transfer of the feature window is cut, at any point. -/
theorem clip_none (a : (pcfg0 (F := F)).Adm) :
    ∀ (t : Fin (cfg0 a).N) (x : Fin 3), ((cfg0 a).win 0).clip ((cfg0 a).grid.coords t) x = none :=
  (by decide +kernel : ∀ (t : Fin grid0.N) (x : Fin 3), clip0_0 (grid0.coords t) x = none)

/-- The result window's block is written back at every point. -/
theorem flush_out (a : (pcfg0 (F := F)).Adm) : ∀ t : Fin (cfg0 a).N, ((cfg0 a).win 5).flush t = true :=
  (by decide +kernel : ∀ t : Fin grid0.N, Pipeline.Window.flushOf grid0 true cc0_transform_5 t = true)

/-! ## The windows' blocks -/

/-- A window's block at a point, read off its array as the region finds it. -/
def iblk (c : Dev nD) (w : Fin (cfgM m).W) (t : Fin (cfgM m).N) :
    (((cfgM m).win w).xblock ((cfgM m).grid.coords t)).Idx → Elt F ((cfgM m).win w).elt :=
  (((cfgM m).win w).blk t).view.read (Elt F) (entry m c (Pipeline.arrRef spec0 w))

/-- The feature window's buffer at a point: its block, which fills the buffer (the filler is never read). -/
def features (c : Dev nD) (t : Fin (cfgM m).N) : S8x128x3136.Idx → Elt F .f32 :=
  ((cfgM m).win 0).fill ((cfgM m).grid.coords t) (fun _ => Classical.choice (Elt.nonempty F EltTy.f32)) (iblk m c 0 t)

/-- Whatever the buffer held before the fetch, after it the buffer holds the block. -/
theorem fill_features (c : Dev nD) (t : Fin (cfgM m).N) (d : S8x128x3136.Idx → Elt F .f32) :
    ((cfgM m).win 0).fill ((cfgM m).grid.coords t) d (iblk m c 0 t) = features m c t :=
  Pipeline.fill_of_clip_none (cfg := cfgM m) 0 _ (clip_none (adm m) t) _ _ _

end Cert.Kernel.Region

end
-- ==== Proof.WordBodyRun.lean ====
/-
  The kernel body on any staging buffers: it loads the five input blocks whole, reads the eight count words of its block of
  batch entries from the table, and stores one value over the whole result block. Stated as the list of stores the run
  makes (one) together with the proof that the body runs to its continuation leaving the inputs and the table as they
  were and the result buffer with those stores made.
-/
import proofs.«431472_j57131654971429_3_alg».proof.Proof.WordRegionEntry

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores of one run of the body into the result buffer, with the run itself. -/
noncomputable def bodyRun (c : Dev nD) (i : grid0.Coords)
    (a2 : Memref sig .tc .vmem S8x128x3136 .f32) (h2 : a2.IsWhole) (a3 : Memref sig .tc .vmem S3136x64 .bf16) (h3 : a3.IsWhole)
    (a4 : Memref sig .tc .vmem S64 .f32) (h4 : a4.IsWhole) (a5 : Memref sig .tc .vmem S64x21 .bf16) (h5 : a5.IsWhole)
    (a6 : Memref sig .tc .vmem S21 .f32) (h6 : a6.IsWhole) (a7 : Memref sig .tc .vmem S8x128x21 .f32) (h7 : a7.IsWhole)
    (x2 : Vec F S8x128x3136 .f32) (x3 : Vec F S3136x64 .bf16) (x4 : Vec F S64 .f32) (x5 : Vec F S64x21 .bf16) (x6 : Vec F S21 .f32)
    (xt : TbBuf (F := F) c countsM) :
    { L : List (View.Piece (Elt F) S8x128x21 .f32) //
      ∀ (E : Set ℕ) (K : PUnit → sProp 𝕄),
        iprop(owns (c : Thread nD τ) a2 fullShare x2 ∗ owns (c : Thread nD τ) a3 fullShare x3 ∗ owns (c : Thread nD τ) a4 fullShare x4
            ∗ owns (c : Thread nD τ) a5 fullShare x5 ∗ owns (c : Thread nD τ) a6 fullShare x6
            ∗ (∃ d, owns (c : Thread nD τ) a7 fullShare d) ∗ tbPt c countsM xt
            ∗ (iprop(owns (c : Thread nD τ) a2 fullShare x2 ∗ owns (c : Thread nD τ) a3 fullShare x3 ∗ owns (c : Thread nD τ) a4 fullShare x4
                ∗ owns (c : Thread nD τ) a5 fullShare x5 ∗ owns (c : Thread nD τ) a6 fullShare x6
                ∗ (∃ f, a7.view.loc (c : Thread nD τ) ↦[a7.view.set]{fullShare} a7.view.writes (Elt F) f L) ∗ tbPt c countsM xt) -∗ K ⟨⟩))
          ⊢ wp frame (wpE (defs₀ (F := F)) Variants.none c none) E
              (cc0__mlp_kernel i countsM hcountsM a2 h2 a3 h3 a4 h4 a5 h5 a6 h6 a7 h7) K } := by
  refine ⟨?_, fun E K => ?run⟩
  case run =>
    simp only [cc0__mlp_kernel_eq_skeleton]; unfold cc0__mlp_kernel_skel
    simp only [k0_part1_eq_skeleton]
    unfold owns
    iintro ⟨⟨%f2, %hf2, H2⟩, ⟨%f3, %hf3, H3⟩, ⟨%f4, %hf4, H4⟩, ⟨%f5, %hf5, H5⟩, ⟨%f6, %hf6, H6⟩, ⟨%d7, %f7, -, H7⟩, HT, Hk⟩
    obtain rfl := h2.eq_unread hf2
    obtain rfl := h3.eq_unread hf3
    obtain rfl := h4.eq_unread hf4
    obtain rfl := h5.eq_unread hf5
    obtain rfl := h6.eq_unread hf6
    sl_exec
    sl_step
    iapply Hk
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]; · iexists _; iexact H7
    iexact HT

end Cert.Kernel.Region

end
-- ==== Proof.WordRegionFrame.lean ====
/-
  The region's frame: every weakly fair execution of the program terminates without fault, and at the end every argument
  array holds what it held at the launch while the result array holds, block by block, what the body stored at each of
  the eight points.

  The proof data say what each window's buffer holds after the body at a point: the five inputs what they held before
  (the body only loads them), the result the value of the body's one store. The invariant between points is the kernel's
  unused scratch and generator state together with the count table at half share. The body obligation is the run of the
  body at the buffers the pipeline hands it.
-/
import proofs.«431472_j57131654971429_3_alg».proof.Proof.WordBodyRun
import Idealize.ShloMosaic.Lib.Ring

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The value of the body's store -/

/-- The run's one store covers the result block. -/
theorem stores_cover (c : Dev nD) (i : grid0.Coords)
    (a2 : Memref sig .tc .vmem S8x128x3136 .f32) (h2 : a2.IsWhole) (a3 : Memref sig .tc .vmem S3136x64 .bf16) (h3 : a3.IsWhole)
    (a4 : Memref sig .tc .vmem S64 .f32) (h4 : a4.IsWhole) (a5 : Memref sig .tc .vmem S64x21 .bf16) (h5 : a5.IsWhole)
    (a6 : Memref sig .tc .vmem S21 .f32) (h6 : a6.IsWhole) (a7 : Memref sig .tc .vmem S8x128x21 .f32) (h7 : a7.IsWhole)
    (x2 : Vec F S8x128x3136 .f32) (x3 : Vec F S3136x64 .bf16) (x4 : Vec F S64 .f32) (x5 : Vec F S64x21 .bf16) (x6 : Vec F S21 .f32)
    (xt : TbBuf (F := F) c countsM) (y : S8x128x21.Idx) :
    ∃ pc ∈ (bodyRun c i a2 h2 a3 h3 a4 h4 a5 h5 a6 h6 a7 h7 x2 x3 x4 x5 x6 xt).1, y ∈ pc.1.set :=
  View.cover_of_tiledL (bodyRun c i a2 h2 a3 h3 a4 h4 a5 h5 a6 h6 a7 h7 x2 x3 x4 x5 x6 xt).1 S8x128x21.size (by sl_kernel_rfl) y

/-- One buffer of the result window, through which the stored contents are read (which one does not matter). -/
abbrev VOut : View sig .tc .vmem S8x128x21 .f32 := (Memref.whole cc0_stg5_0 : Memref sig .tc .vmem S8x128x21 .f32).view

/-- What one run of the body leaves in the result buffer. -/
def stored (c : Dev nD) (i : grid0.Coords)
    (a2 : Memref sig .tc .vmem S8x128x3136 .f32) (h2 : a2.IsWhole) (a3 : Memref sig .tc .vmem S3136x64 .bf16) (h3 : a3.IsWhole)
    (a4 : Memref sig .tc .vmem S64 .f32) (h4 : a4.IsWhole) (a5 : Memref sig .tc .vmem S64x21 .bf16) (h5 : a5.IsWhole)
    (a6 : Memref sig .tc .vmem S21 .f32) (h6 : a6.IsWhole) (a7 : Memref sig .tc .vmem S8x128x21 .f32) (h7 : a7.IsWhole)
    (x2 : Vec F S8x128x3136 .f32) (x3 : Vec F S3136x64 .bf16) (x4 : Vec F S64 .f32) (x5 : Vec F S64x21 .bf16) (x6 : Vec F S21 .f32)
    (xt : TbBuf (F := F) c countsM) : Vec F S8x128x21 .f32 :=
  VOut.read (Elt F) (VOut.writes (Elt F) VOut.junk (bodyRun c i a2 h2 a3 h3 a4 h4 a5 h5 a6 h6 a7 h7 x2 x3 x4 x5 x6 xt).1)

/-! ## The buffers the pipeline hands the body at a point -/

abbrev ms0 (t : Fin (cfgM m).N) : Memref sig .tc .vmem S8x128x3136 .f32 := spec0_0.stage ((cfgM m).slots t 0)
abbrev hs0 (t : Fin (cfgM m).N) : (ms0 m t).IsWhole := hstage0_0 (((cfgM m).slots t 0).cast nbuf0_0)
abbrev ms1 (t : Fin (cfgM m).N) : Memref sig .tc .vmem S3136x64 .bf16 := spec0_1.stage ((cfgM m).slots t 1)
abbrev hs1 (t : Fin (cfgM m).N) : (ms1 m t).IsWhole := hstage0_1 (((cfgM m).slots t 1).cast nbuf0_1)
abbrev ms2 (t : Fin (cfgM m).N) : Memref sig .tc .vmem S64 .f32 := spec0_2.stage ((cfgM m).slots t 2)
abbrev hs2 (t : Fin (cfgM m).N) : (ms2 m t).IsWhole := hstage0_2 (((cfgM m).slots t 2).cast nbuf0_2)
abbrev ms3 (t : Fin (cfgM m).N) : Memref sig .tc .vmem S64x21 .bf16 := spec0_3.stage ((cfgM m).slots t 3)
abbrev hs3 (t : Fin (cfgM m).N) : (ms3 m t).IsWhole := hstage0_3 (((cfgM m).slots t 3).cast nbuf0_3)
abbrev ms4 (t : Fin (cfgM m).N) : Memref sig .tc .vmem S21 .f32 := spec0_4.stage ((cfgM m).slots t 4)
abbrev hs4 (t : Fin (cfgM m).N) : (ms4 m t).IsWhole := hstage0_4 (((cfgM m).slots t 4).cast nbuf0_4)
abbrev ms5 (t : Fin (cfgM m).N) : Memref sig .tc .vmem S8x128x21 .f32 := spec0_5.stage ((cfgM m).slots t 5)
abbrev hs5 (t : Fin (cfgM m).N) : (ms5 m t).IsWhole := hstage0_5 (((cfgM m).slots t 5).cast nbuf0_5)

/-- The body as the pipeline calls it at a point. -/
abbrev bodyAt (t : Fin (cfgM m).N) : Prog (TpuEff nD τ sig (Elt F) Λ₀ .tc) PUnit :=
  cc0__mlp_kernel (grid0.coords t) countsM hcountsM (ms0 m t) (hs0 m t) (ms1 m t) (hs1 m t) (ms2 m t) (hs2 m t)
    (ms3 m t) (hs3 m t) (ms4 m t) (hs4 m t) (ms5 m t) (hs5 m t)

/-- The result block the body stores at a point: the store's value at the point's buffers, the input blocks there and
    the table. -/
def resultAt (c : Dev nD) (t : Fin (cfgM m).N) : Vec F S8x128x21 .f32 :=
  stored c (grid0.coords t) (ms0 m t) (hs0 m t) (ms1 m t) (hs1 m t) (ms2 m t) (hs2 m t) (ms3 m t) (hs3 m t) (ms4 m t) (hs4 m t)
    (ms5 m t) (hs5 m t) (features m c t) (iblk m c 1 t) (iblk m c 2 t) (iblk m c 3 t) (iblk m c 4 t) (counts m 0)

/-! ## The proof data -/

def dats (_ : Fin 1) (c : Dev nD) : Dat τ (Elt F) Unit ℕ (UR sig nD τ) ℕ (cfgM m) c where
  A w := entry m c (Pipeline.arrRef spec0 w)
  after w t := match w with
    | ⟨0, _⟩ => features m c t
    | ⟨1, _⟩ => iblk m c 1 t
    | ⟨2, _⟩ => iblk m c 2 t
    | ⟨3, _⟩ => iblk m c 3 t
    | ⟨4, _⟩ => iblk m c 4 t
    | ⟨5, _⟩ => resultAt m c t
  Φ _ := iprop(Pipeline.ΦA spec0 c ∗ Pipeline.ΦT pre0 (counts m) c)
  q _ := fullShare
  owed _ := 0

theorem A_eq (c : Dev nD) (w : Fin (cfgM m).W) : (dats m 0 c).A w = entry m c (Pipeline.arrRef spec0 w) := by
  dsimp only [dats]

theorem after0 (c : Dev nD) (t : Fin (cfgM m).N) : (dats m 0 c).after 0 t = features m c t := by dsimp only [dats]; try rfl
theorem after1 (c : Dev nD) (t : Fin (cfgM m).N) : (dats m 0 c).after 1 t = iblk m c 1 t := by dsimp only [dats]; try rfl
theorem after2 (c : Dev nD) (t : Fin (cfgM m).N) : (dats m 0 c).after 2 t = iblk m c 2 t := by dsimp only [dats]; try rfl
theorem after3 (c : Dev nD) (t : Fin (cfgM m).N) : (dats m 0 c).after 3 t = iblk m c 3 t := by dsimp only [dats]; try rfl
theorem after4 (c : Dev nD) (t : Fin (cfgM m).N) : (dats m 0 c).after 4 t = iblk m c 4 t := by dsimp only [dats]; try rfl
theorem after5 (c : Dev nD) (t : Fin (cfgM m).N) : (dats m 0 c).after 5 t = resultAt m c t := by dsimp only [dats]; try rfl

/-! ## What each buffer holds when the body runs -/

/-- The feature buffer holds the point's block, fetched at every point and never cut. -/
theorem before0 (c : Dev nD) (t : Fin (cfgM m).N) (d) : (dats m 0 c).before 0 t d = features m c t := by
  rw [(dats m 0 c).before_in_eq_fetched 0 rfl (fun _ => rfl)
    (fun t t' _ => funext fun x => (clip_none (adm m) t x).trans (clip_none (adm m) t' x).symm)
    (fun t => by rw [after0]; unfold features Dat.blockOf iblk; rw [A_eq]; exact Window.cut_fill _ _ _ _) t d]
  unfold Dat.fetched Dat.blockOf
  rw [A_eq]
  exact fill_features m c t d

/-- Each weight or bias buffer holds its whole array, fetched at the first point and kept. -/
theorem before1 (c : Dev nD) (t : Fin (cfgM m).N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
theorem before2 (c : Dev nD) (t : Fin (cfgM m).N) (d) : (dats m 0 c).before 2 t d = iblk m c 2 t :=
  ((dats m 0 c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)
theorem before3 (c : Dev nD) (t : Fin (cfgM m).N) (d) : (dats m 0 c).before 3 t d = iblk m c 3 t :=
  ((dats m 0 c).before_in_eq_fetched 3 rfl (fun _ => rfl) (fun _ _ _ => rfl)
    (fun t => by rw [after3]; unfold Dat.blockOf iblk; rw [A_eq]; try rfl) t d).trans
    (by unfold Dat.fetched Dat.blockOf iblk; rw [A_eq]; try rfl)
theorem before4 (c : Dev nD) (t : Fin (cfgM m).N) (d) : (dats m 0 c).before 4 t d = iblk m c 4 t :=
  ((dats m 0 c).before_in_eq_fetched 4 rfl (fun _ => rfl) (fun _ _ _ => rfl)
    (fun t => by rw [after4]; unfold Dat.blockOf iblk; rw [A_eq]; try rfl) t d).trans
    (by unfold Dat.fetched Dat.blockOf iblk; rw [A_eq]; try rfl)

/-- The result buffer holds nothing the proof names: it was written back at the point before. -/
theorem before5 (c : Dev nD) (t : Fin (cfgM m).N) (d) : (dats m 0 c).before 5 t d = d := by
  refine (dats m 0 c).before_out_reset 5 rfl t ?_ d
  by_cases h0 : t.val = 0
  · exact .inl h0
  · exact .inr ⟨h0, flush_out (adm m) _⟩

/-! ## The body obligation -/

def bodyPre (c : Dev nD) (t : Fin (cfgM m).N) : sProp 𝕄 :=
  iprop((dats m 0 c).Φ t.castSucc ∗ (dats m 0 c).owesAt () t.castSucc
    ∗ (∃ d, owns (c : Thread nD τ) (ms0 m t) fullShare ((dats m 0 c).before 0 t d))
    ∗ (∃ d, owns (c : Thread nD τ) (ms1 m t) fullShare ((dats m 0 c).before 1 t d))
    ∗ (∃ d, owns (c : Thread nD τ) (ms2 m t) fullShare ((dats m 0 c).before 2 t d))
    ∗ (∃ d, owns (c : Thread nD τ) (ms3 m t) fullShare ((dats m 0 c).before 3 t d))
    ∗ (∃ d, owns (c : Thread nD τ) (ms4 m t) fullShare ((dats m 0 c).before 4 t d))
    ∗ (∃ d, owns (c : Thread nD τ) (ms5 m t) fullShare ((dats m 0 c).before 5 t d)))

def bodyPost (c : Dev nD) (t : Fin (cfgM m).N) : sProp 𝕄 :=
  iprop((dats m 0 c).Φ t.succ ∗ (dats m 0 c).owesAt () t.succ
    ∗ owns (c : Thread nD τ) (ms0 m t) fullShare ((dats m 0 c).after 0 t)
    ∗ owns (c : Thread nD τ) (ms1 m t) fullShare ((dats m 0 c).after 1 t)
    ∗ owns (c : Thread nD τ) (ms2 m t) fullShare ((dats m 0 c).after 2 t)
    ∗ owns (c : Thread nD τ) (ms3 m t) fullShare ((dats m 0 c).after 3 t)
    ∗ owns (c : Thread nD τ) (ms4 m t) fullShare ((dats m 0 c).after 4 t)
    ∗ owns (c : Thread nD τ) (ms5 m t) fullShare ((dats m 0 c).after 5 t))

theorem sound_body (c : Dev nD) (t : Fin (cfgM m).N) :
    bodyPre m c t ⊢ wp frame (wpE (defs₀ (F := F)) Variants.none c none) Set.univ (bodyAt m t) (fun _ => bodyPost m c t) := by
  unfold bodyPre bodyPost bodyAt
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5]
  rw [show (dats m 0 c).Φ t.castSucc = iprop(Pipeline.ΦA spec0 c ∗ Pipeline.ΦT pre0 (counts m) c) from rfl, tables_eq]
  unfold resultAt stored
  iintro ⟨⟨HΦ, HT⟩, Ho, ⟨%d0, H0⟩, ⟨%d1, H1⟩, ⟨%d2, H2⟩, ⟨%d3, H3⟩, ⟨%d4, H4⟩, ⟨%d5, H5⟩⟩
  iapply ((bodyRun c (grid0.coords t) _ _ _ _ _ _ _ _ _ _ _ _ (features m c t) (iblk m c 1 t) (iblk m c 2 t) (iblk m c 3 t)
    (iblk m c 4 t) (counts m 0)).2 Set.univ _)
  isplitl [H0]; · iexact H0
  isplitl [H1]; · iexact H1
  isplitl [H2]; · iexact H2
  isplitl [H3]; · iexact H3
  isplitl [H4]; · iexact H4
  isplitl [H5]; · iexists _; iexact H5
  isplitl [HT]; · iexact HT
  iintro ⟨H0, H1, H2, H3, H4, ⟨%e5, H5⟩, HT⟩
  isplitl [HΦ HT]
  · isplitl [HΦ]
    · iexact HΦ
    iexact HT
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (stores_cover c _ _ _ _ _ _ _ _ _ _ _ _ _ _ _ _ _ _ _)

theorem body_obligation (c : Dev nD) :
    BodyObligation (dats (F := F) m 0 c) (defs₀ (F := F)) Variants.none () Set.univ := fun t => by
  rw [bigSep_W0, bigSep_W0]
  exact sound_body m c t

/-! ## The run -/

set_option backward.isDefEq.respectTransparency.types false in
theorem run_main : θ_run defs (onTc (τ := τ) (main (F := F))) (s₀ m ρ)
    (Pipeline.FramePost (Pipeline.pin pcfgs fun _ => adm m) (dats m) 0 (entry m)) :=
  Pipeline.θ_run_frameP pcfgs (fun _ => adm m) (dats m) (0 : Fin 1) launch0 defs₀ Variants.none m ρ main
    (hbody := fun c => (body_obligation m c).loose) (hshare := fun c => (dats m 0 c).share_full fun _ => rfl)
    (howed := fun _ _ => rfl) (V := entry m) (hmain := hmain m Variants.none) (hA := A_eq m) (hpf := entry_pre m)
    (hΦ := fun _ _ => rfl)

/-- The frame claim: the six argument arrays end as launched. Three are arrays of input windows, two (the unconverted
    weights) bypass the region, and the count table passes through it unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).1 0).trans (((dats m 0 c).arrAt_in 0 rfl _).trans ((A_eq m c 0).trans (entry_arg0 m c))),
     ((h c).2 main_arg1 (by decide : main_arg1 ∈ Pipeline.restRefs sig spec0)).trans (entry_arg1 m c),
     ((h c).1 2).trans (((dats m 0 c).arrAt_in 2 rfl _).trans ((A_eq m c 2).trans (entry_arg2 m c))),
     ((h c).2 main_arg3 (by decide : main_arg3 ∈ Pipeline.restRefs sig spec0)).trans (entry_arg3 m c),
     ((h c).1 4).trans (((dats m 0 c).arrAt_in 4 rfl _).trans ((A_eq m c 4).trans (entry_arg4 m c))),
     ((h c).2 main_arg5 (by decide : main_arg5 ∈ Pipeline.restRefs sig spec0)).trans (entry_arg5 m c)⟩) (run_main m ρ)

end Cert.Kernel.Region

end
-- ==== Proof.RegionEntry.lean ====
/-
  What the program's one region finds when it is entered, and what its windows' buffers hold point by point.

  Before the region the host changes the format of the two weight matrices; every other argument reaches the region as
  launched. The region's grid has eight points, one per block of eight batch entries. The feature window's block at
  point t is batch entries 8t … 8t+7, regions 0 … 127, all 3136 features: the block index on the region axis is always 0,
  so although 300 is not a multiple of 128 no block ever reaches the end of that axis and no transfer is ever cut. The
  two weight matrices and the two bias vectors are fetched once, whole, and stay in their buffers. The result window's
  block at point t is written back at every point. The count table sits in scalar memory for the whole region.
-/
import proofs.«431472_j57131654971429_3_alg».proof.Proof.Gen.KernelIdeal.Launch
import proofs.«431472_j57131654971429_3_alg».proof.Proof.Gen.KernelIdeal.Skeleton
import Idealize.ShloMosaic.Lib.Pipeline.Frame
import Idealize.ShloMosaic.Lib.Pipeline.FrameBody
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- A core's buffers when the region is entered: the launch contents after the host's two format changes. -/
abbrev entry (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- The program is those two operations and then the region. -/
theorem hmain (𝒱₀ : Variants) :
    Pipeline.HMainP (Ix := Unit) (Name := ℕ) (U := UR sig nD τ) (Lvl := ℕ) pcfgs 0 defs₀ 𝒱₀ m (main (F := F)) (entry m) :=
  Pipeline.hmainP_prefix pcfgs 0 defs₀ 𝒱₀ m main hostOps0 hostOps0_sub hostOps0_fresh main_chain

/-- A buffer that is neither converted weight matrix is found as launched. -/
theorem entry_kept (c : Dev nD) (b : Ref sig .tc) (h0 : b ≠ main_v0) (h1 : b ≠ main_v1) :
    entry m c b = m ((c : Thread nD τ).loc b) :=
  StableHlo.after_of_forall_not_mem (b := Proc.devRef .tc b) _ _ (List.forall_iff_forall_mem.mp (by
    simp only [hostOps0, List.Forall, StableHlo.unary_writes, Finset.mem_singleton]
    exact ⟨StableHlo.devRef_ne_of_ne h0, StableHlo.devRef_ne_of_ne h1⟩))

theorem entry_arg0 (c : Dev nD) : entry m c main_arg0 = m ((c : Thread nD τ).loc main_arg0) := entry_kept m c _ (by decide) (by decide)
theorem entry_arg1 (c : Dev nD) : entry m c main_arg1 = m ((c : Thread nD τ).loc main_arg1) := entry_kept m c _ (by decide) (by decide)
theorem entry_arg2 (c : Dev nD) : entry m c main_arg2 = m ((c : Thread nD τ).loc main_arg2) := entry_kept m c _ (by decide) (by decide)
theorem entry_arg3 (c : Dev nD) : entry m c main_arg3 = m ((c : Thread nD τ).loc main_arg3) := entry_kept m c _ (by decide) (by decide)
theorem entry_arg4 (c : Dev nD) : entry m c main_arg4 = m ((c : Thread nD τ).loc main_arg4) := entry_kept m c _ (by decide) (by decide)
theorem entry_arg5 (c : Dev nD) : entry m c main_arg5 = m ((c : Thread nD τ).loc main_arg5) := entry_kept m c _ (by decide) (by decide)

/-! ## The count table -/

/-- The table's contents when the region is entered (there is one device). -/
def counts : pre0.Contents (Elt F) := fun j => entry m (0 : Dev nD) (pre0.ref j)

theorem entry_pre (c : Dev nD) (j : Fin 1) : entry m c (pre0.ref j) = counts m j := by
  obtain rfl : c = 0 := Subsingleton.elim _ _; rfl

/-- No index map reads the table, so every contents of it is admissible. -/
abbrev adm : (pcfg0 (F := F)).Adm := ⟨counts m, by show ok0 (F := F) (counts m); rw [ok0]; trivial⟩
/-- The pipeline at the table's contents. -/
abbrev cfgM : Pipeline.Cfg sig Λ₀ := cfg0 (adm m)

/-- The table as the body is handed it: its whole buffer as a memref. -/
abbrev countsM : Memref sig .tc .smem S64 .i32 := Memref.whole main_arg5
abbrev hcountsM : (countsM).IsWhole := Memref.isWhole_whole _

/-- A table memref's buffer on a core, and that buffer held at half the full share: the body may load its words and
    cannot store into it. -/
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

/-- What the region hands the body of the table: that one points-to. -/
theorem tables_eq (c : Dev nD) : (Pipeline.ΦT pre0 (counts m) c : sProp 𝕄) = tbPt c countsM (counts m 0) := by
  unfold Pipeline.ΦT Pipeline.prefHeld
  rw [show (Finset.univ : Finset (Fin 1)) = {(0 : Fin 1)} from by decide, bigSep_singleton]
  rfl

/-! ## The schedule -/

/-- No transfer of the feature window is cut, at any point. -/
theorem clip_none (a : (pcfg0 (F := F)).Adm) :
    ∀ (t : Fin (cfg0 a).N) (x : Fin 3), ((cfg0 a).win 0).clip ((cfg0 a).grid.coords t) x = none :=
  (by decide +kernel : ∀ (t : Fin grid0.N) (x : Fin 3), clip0_0 (grid0.coords t) x = none)

/-- The result window's block is written back at every point. -/
theorem flush_out (a : (pcfg0 (F := F)).Adm) : ∀ t : Fin (cfg0 a).N, ((cfg0 a).win 5).flush t = true :=
  (by decide +kernel : ∀ t : Fin grid0.N, Pipeline.Window.flushOf grid0 true cc0_transform_5 t = true)

/-! ## The windows' blocks -/

/-- A window's block at a point, read off its array as the region finds it. -/
def iblk (c : Dev nD) (w : Fin (cfgM m).W) (t : Fin (cfgM m).N) :
    (((cfgM m).win w).xblock ((cfgM m).grid.coords t)).Idx → Elt F ((cfgM m).win w).elt :=
  (((cfgM m).win w).blk t).view.read (Elt F) (entry m c (Pipeline.arrRef spec0 w))

/-- The feature window's buffer at a point: its block, which fills the buffer (the filler is never read). -/
def features (c : Dev nD) (t : Fin (cfgM m).N) : S8x128x3136.Idx → Elt F .f32 :=
  ((cfgM m).win 0).fill ((cfgM m).grid.coords t) (fun _ => Classical.choice (Elt.nonempty F EltTy.f32)) (iblk m c 0 t)

/-- Whatever the buffer held before the fetch, after it the buffer holds the block. -/
theorem fill_features (c : Dev nD) (t : Fin (cfgM m).N) (d : S8x128x3136.Idx → Elt F .f32) :
    ((cfgM m).win 0).fill ((cfgM m).grid.coords t) d (iblk m c 0 t) = features m c t :=
  Pipeline.fill_of_clip_none (cfg := cfgM m) 0 _ (clip_none (adm m) t) _ _ _

end Cert.KernelIdeal.Region

end
-- ==== Proof.BodyRun.lean ====
/-
  The kernel body on any staging buffers: it loads the five input blocks whole, reads the eight count words of its block of
  batch entries from the table, and stores one value over the whole result block. Stated as the list of stores the run
  makes (one) together with the proof that the body runs to its continuation leaving the inputs and the table as they
  were and the result buffer with those stores made.
-/
import proofs.«431472_j57131654971429_3_alg».proof.Proof.RegionEntry

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores of one run of the body into the result buffer, with the run itself. -/
noncomputable def bodyRun (c : Dev nD) (i : grid0.Coords)
    (a2 : Memref sig .tc .vmem S8x128x3136 .f32) (h2 : a2.IsWhole) (a3 : Memref sig .tc .vmem S3136x64 .bf16) (h3 : a3.IsWhole)
    (a4 : Memref sig .tc .vmem S64 .f32) (h4 : a4.IsWhole) (a5 : Memref sig .tc .vmem S64x21 .bf16) (h5 : a5.IsWhole)
    (a6 : Memref sig .tc .vmem S21 .f32) (h6 : a6.IsWhole) (a7 : Memref sig .tc .vmem S8x128x21 .f32) (h7 : a7.IsWhole)
    (x2 : Vec F S8x128x3136 .f32) (x3 : Vec F S3136x64 .bf16) (x4 : Vec F S64 .f32) (x5 : Vec F S64x21 .bf16) (x6 : Vec F S21 .f32)
    (xt : TbBuf (F := F) c countsM) :
    { L : List (View.Piece (Elt F) S8x128x21 .f32) //
      ∀ (E : Set ℕ) (K : PUnit → sProp 𝕄),
        iprop(owns (c : Thread nD τ) a2 fullShare x2 ∗ owns (c : Thread nD τ) a3 fullShare x3 ∗ owns (c : Thread nD τ) a4 fullShare x4
            ∗ owns (c : Thread nD τ) a5 fullShare x5 ∗ owns (c : Thread nD τ) a6 fullShare x6
            ∗ (∃ d, owns (c : Thread nD τ) a7 fullShare d) ∗ tbPt c countsM xt
            ∗ (iprop(owns (c : Thread nD τ) a2 fullShare x2 ∗ owns (c : Thread nD τ) a3 fullShare x3 ∗ owns (c : Thread nD τ) a4 fullShare x4
                ∗ owns (c : Thread nD τ) a5 fullShare x5 ∗ owns (c : Thread nD τ) a6 fullShare x6
                ∗ (∃ f, a7.view.loc (c : Thread nD τ) ↦[a7.view.set]{fullShare} a7.view.writes (Elt F) f L) ∗ tbPt c countsM xt) -∗ K ⟨⟩))
          ⊢ wp frame (wpE (defs₀ (F := F)) Variants.none c none) E
              (cc0__mlp_kernel i countsM hcountsM a2 h2 a3 h3 a4 h4 a5 h5 a6 h6 a7 h7) K } := by
  refine ⟨?_, fun E K => ?run⟩
  case run =>
    simp only [cc0__mlp_kernel_eq_skeleton]; unfold cc0__mlp_kernel_skel
    simp only [k0_part1_eq_skeleton]
    unfold owns
    iintro ⟨⟨%f2, %hf2, H2⟩, ⟨%f3, %hf3, H3⟩, ⟨%f4, %hf4, H4⟩, ⟨%f5, %hf5, H5⟩, ⟨%f6, %hf6, H6⟩, ⟨%d7, %f7, -, H7⟩, HT, Hk⟩
    obtain rfl := h2.eq_unread hf2
    obtain rfl := h3.eq_unread hf3
    obtain rfl := h4.eq_unread hf4
    obtain rfl := h5.eq_unread hf5
    obtain rfl := h6.eq_unread hf6
    sl_exec
    sl_step
    iapply Hk
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]; · iexists _; iexact H7
    iexact HT

end Cert.KernelIdeal.Region

end
-- ==== Proof.RegionFrame.lean ====
/-
  The region's frame: every weakly fair execution of the program terminates without fault, and at the end every argument
  array holds what it held at the launch while the result array holds, block by block, what the body stored at each of
  the eight points.

  The proof data say what each window's buffer holds after the body at a point: the five inputs what they held before
  (the body only loads them), the result the value of the body's one store. The invariant between points is the kernel's
  unused scratch and generator state together with the count table at half share. The body obligation is the run of the
  body at the buffers the pipeline hands it.
-/
import proofs.«431472_j57131654971429_3_alg».proof.Proof.BodyRun
import Idealize.ShloMosaic.Lib.Ring

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The value of the body's store -/

/-- The run's one store covers the result block. -/
theorem stores_cover (c : Dev nD) (i : grid0.Coords)
    (a2 : Memref sig .tc .vmem S8x128x3136 .f32) (h2 : a2.IsWhole) (a3 : Memref sig .tc .vmem S3136x64 .bf16) (h3 : a3.IsWhole)
    (a4 : Memref sig .tc .vmem S64 .f32) (h4 : a4.IsWhole) (a5 : Memref sig .tc .vmem S64x21 .bf16) (h5 : a5.IsWhole)
    (a6 : Memref sig .tc .vmem S21 .f32) (h6 : a6.IsWhole) (a7 : Memref sig .tc .vmem S8x128x21 .f32) (h7 : a7.IsWhole)
    (x2 : Vec F S8x128x3136 .f32) (x3 : Vec F S3136x64 .bf16) (x4 : Vec F S64 .f32) (x5 : Vec F S64x21 .bf16) (x6 : Vec F S21 .f32)
    (xt : TbBuf (F := F) c countsM) (y : S8x128x21.Idx) :
    ∃ pc ∈ (bodyRun c i a2 h2 a3 h3 a4 h4 a5 h5 a6 h6 a7 h7 x2 x3 x4 x5 x6 xt).1, y ∈ pc.1.set :=
  View.cover_of_tiledL (bodyRun c i a2 h2 a3 h3 a4 h4 a5 h5 a6 h6 a7 h7 x2 x3 x4 x5 x6 xt).1 S8x128x21.size (by sl_kernel_rfl) y

/-- One buffer of the result window, through which the stored contents are read (which one does not matter). -/
abbrev VOut : View sig .tc .vmem S8x128x21 .f32 := (Memref.whole cc0_stg5_0 : Memref sig .tc .vmem S8x128x21 .f32).view

/-- What one run of the body leaves in the result buffer. -/
def stored (c : Dev nD) (i : grid0.Coords)
    (a2 : Memref sig .tc .vmem S8x128x3136 .f32) (h2 : a2.IsWhole) (a3 : Memref sig .tc .vmem S3136x64 .bf16) (h3 : a3.IsWhole)
    (a4 : Memref sig .tc .vmem S64 .f32) (h4 : a4.IsWhole) (a5 : Memref sig .tc .vmem S64x21 .bf16) (h5 : a5.IsWhole)
    (a6 : Memref sig .tc .vmem S21 .f32) (h6 : a6.IsWhole) (a7 : Memref sig .tc .vmem S8x128x21 .f32) (h7 : a7.IsWhole)
    (x2 : Vec F S8x128x3136 .f32) (x3 : Vec F S3136x64 .bf16) (x4 : Vec F S64 .f32) (x5 : Vec F S64x21 .bf16) (x6 : Vec F S21 .f32)
    (xt : TbBuf (F := F) c countsM) : Vec F S8x128x21 .f32 :=
  VOut.read (Elt F) (VOut.writes (Elt F) VOut.junk (bodyRun c i a2 h2 a3 h3 a4 h4 a5 h5 a6 h6 a7 h7 x2 x3 x4 x5 x6 xt).1)

/-! ## The buffers the pipeline hands the body at a point -/

abbrev ms0 (t : Fin (cfgM m).N) : Memref sig .tc .vmem S8x128x3136 .f32 := spec0_0.stage ((cfgM m).slots t 0)
abbrev hs0 (t : Fin (cfgM m).N) : (ms0 m t).IsWhole := hstage0_0 (((cfgM m).slots t 0).cast nbuf0_0)
abbrev ms1 (t : Fin (cfgM m).N) : Memref sig .tc .vmem S3136x64 .bf16 := spec0_1.stage ((cfgM m).slots t 1)
abbrev hs1 (t : Fin (cfgM m).N) : (ms1 m t).IsWhole := hstage0_1 (((cfgM m).slots t 1).cast nbuf0_1)
abbrev ms2 (t : Fin (cfgM m).N) : Memref sig .tc .vmem S64 .f32 := spec0_2.stage ((cfgM m).slots t 2)
abbrev hs2 (t : Fin (cfgM m).N) : (ms2 m t).IsWhole := hstage0_2 (((cfgM m).slots t 2).cast nbuf0_2)
abbrev ms3 (t : Fin (cfgM m).N) : Memref sig .tc .vmem S64x21 .bf16 := spec0_3.stage ((cfgM m).slots t 3)
abbrev hs3 (t : Fin (cfgM m).N) : (ms3 m t).IsWhole := hstage0_3 (((cfgM m).slots t 3).cast nbuf0_3)
abbrev ms4 (t : Fin (cfgM m).N) : Memref sig .tc .vmem S21 .f32 := spec0_4.stage ((cfgM m).slots t 4)
abbrev hs4 (t : Fin (cfgM m).N) : (ms4 m t).IsWhole := hstage0_4 (((cfgM m).slots t 4).cast nbuf0_4)
abbrev ms5 (t : Fin (cfgM m).N) : Memref sig .tc .vmem S8x128x21 .f32 := spec0_5.stage ((cfgM m).slots t 5)
abbrev hs5 (t : Fin (cfgM m).N) : (ms5 m t).IsWhole := hstage0_5 (((cfgM m).slots t 5).cast nbuf0_5)

/-- The body as the pipeline calls it at a point. -/
abbrev bodyAt (t : Fin (cfgM m).N) : Prog (TpuEff nD τ sig (Elt F) Λ₀ .tc) PUnit :=
  cc0__mlp_kernel (grid0.coords t) countsM hcountsM (ms0 m t) (hs0 m t) (ms1 m t) (hs1 m t) (ms2 m t) (hs2 m t)
    (ms3 m t) (hs3 m t) (ms4 m t) (hs4 m t) (ms5 m t) (hs5 m t)

/-- The result block the body stores at a point: the store's value at the point's buffers, the input blocks there and
    the table. -/
def resultAt (c : Dev nD) (t : Fin (cfgM m).N) : Vec F S8x128x21 .f32 :=
  stored c (grid0.coords t) (ms0 m t) (hs0 m t) (ms1 m t) (hs1 m t) (ms2 m t) (hs2 m t) (ms3 m t) (hs3 m t) (ms4 m t) (hs4 m t)
    (ms5 m t) (hs5 m t) (features m c t) (iblk m c 1 t) (iblk m c 2 t) (iblk m c 3 t) (iblk m c 4 t) (counts m 0)

/-! ## The proof data -/

def dats (_ : Fin 1) (c : Dev nD) : Dat τ (Elt F) Unit ℕ (UR sig nD τ) ℕ (cfgM m) c where
  A w := entry m c (Pipeline.arrRef spec0 w)
  after w t := match w with
    | ⟨0, _⟩ => features m c t
    | ⟨1, _⟩ => iblk m c 1 t
    | ⟨2, _⟩ => iblk m c 2 t
    | ⟨3, _⟩ => iblk m c 3 t
    | ⟨4, _⟩ => iblk m c 4 t
    | ⟨5, _⟩ => resultAt m c t
  Φ _ := iprop(Pipeline.ΦA spec0 c ∗ Pipeline.ΦT pre0 (counts m) c)
  q _ := fullShare
  owed _ := 0

theorem A_eq (c : Dev nD) (w : Fin (cfgM m).W) : (dats m 0 c).A w = entry m c (Pipeline.arrRef spec0 w) := by
  dsimp only [dats]

theorem after0 (c : Dev nD) (t : Fin (cfgM m).N) : (dats m 0 c).after 0 t = features m c t := by dsimp only [dats]; try rfl
theorem after1 (c : Dev nD) (t : Fin (cfgM m).N) : (dats m 0 c).after 1 t = iblk m c 1 t := by dsimp only [dats]; try rfl
theorem after2 (c : Dev nD) (t : Fin (cfgM m).N) : (dats m 0 c).after 2 t = iblk m c 2 t := by dsimp only [dats]; try rfl
theorem after3 (c : Dev nD) (t : Fin (cfgM m).N) : (dats m 0 c).after 3 t = iblk m c 3 t := by dsimp only [dats]; try rfl
theorem after4 (c : Dev nD) (t : Fin (cfgM m).N) : (dats m 0 c).after 4 t = iblk m c 4 t := by dsimp only [dats]; try rfl
theorem after5 (c : Dev nD) (t : Fin (cfgM m).N) : (dats m 0 c).after 5 t = resultAt m c t := by dsimp only [dats]; try rfl

/-! ## What each buffer holds when the body runs -/

/-- The feature buffer holds the point's block, fetched at every point and never cut. -/
theorem before0 (c : Dev nD) (t : Fin (cfgM m).N) (d) : (dats m 0 c).before 0 t d = features m c t := by
  rw [(dats m 0 c).before_in_eq_fetched 0 rfl (fun _ => rfl)
    (fun t t' _ => funext fun x => (clip_none (adm m) t x).trans (clip_none (adm m) t' x).symm)
    (fun t => by rw [after0]; unfold features Dat.blockOf iblk; rw [A_eq]; exact Window.cut_fill _ _ _ _) t d]
  unfold Dat.fetched Dat.blockOf
  rw [A_eq]
  exact fill_features m c t d

/-- Each weight or bias buffer holds its whole array, fetched at the first point and kept. -/
theorem before1 (c : Dev nD) (t : Fin (cfgM m).N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
theorem before2 (c : Dev nD) (t : Fin (cfgM m).N) (d) : (dats m 0 c).before 2 t d = iblk m c 2 t :=
  ((dats m 0 c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)
theorem before3 (c : Dev nD) (t : Fin (cfgM m).N) (d) : (dats m 0 c).before 3 t d = iblk m c 3 t :=
  ((dats m 0 c).before_in_eq_fetched 3 rfl (fun _ => rfl) (fun _ _ _ => rfl)
    (fun t => by rw [after3]; unfold Dat.blockOf iblk; rw [A_eq]; try rfl) t d).trans
    (by unfold Dat.fetched Dat.blockOf iblk; rw [A_eq]; try rfl)
theorem before4 (c : Dev nD) (t : Fin (cfgM m).N) (d) : (dats m 0 c).before 4 t d = iblk m c 4 t :=
  ((dats m 0 c).before_in_eq_fetched 4 rfl (fun _ => rfl) (fun _ _ _ => rfl)
    (fun t => by rw [after4]; unfold Dat.blockOf iblk; rw [A_eq]; try rfl) t d).trans
    (by unfold Dat.fetched Dat.blockOf iblk; rw [A_eq]; try rfl)

/-- The result buffer holds nothing the proof names: it was written back at the point before. -/
theorem before5 (c : Dev nD) (t : Fin (cfgM m).N) (d) : (dats m 0 c).before 5 t d = d := by
  refine (dats m 0 c).before_out_reset 5 rfl t ?_ d
  by_cases h0 : t.val = 0
  · exact .inl h0
  · exact .inr ⟨h0, flush_out (adm m) _⟩

/-! ## The body obligation -/

def bodyPre (c : Dev nD) (t : Fin (cfgM m).N) : sProp 𝕄 :=
  iprop((dats m 0 c).Φ t.castSucc ∗ (dats m 0 c).owesAt () t.castSucc
    ∗ (∃ d, owns (c : Thread nD τ) (ms0 m t) fullShare ((dats m 0 c).before 0 t d))
    ∗ (∃ d, owns (c : Thread nD τ) (ms1 m t) fullShare ((dats m 0 c).before 1 t d))
    ∗ (∃ d, owns (c : Thread nD τ) (ms2 m t) fullShare ((dats m 0 c).before 2 t d))
    ∗ (∃ d, owns (c : Thread nD τ) (ms3 m t) fullShare ((dats m 0 c).before 3 t d))
    ∗ (∃ d, owns (c : Thread nD τ) (ms4 m t) fullShare ((dats m 0 c).before 4 t d))
    ∗ (∃ d, owns (c : Thread nD τ) (ms5 m t) fullShare ((dats m 0 c).before 5 t d)))

def bodyPost (c : Dev nD) (t : Fin (cfgM m).N) : sProp 𝕄 :=
  iprop((dats m 0 c).Φ t.succ ∗ (dats m 0 c).owesAt () t.succ
    ∗ owns (c : Thread nD τ) (ms0 m t) fullShare ((dats m 0 c).after 0 t)
    ∗ owns (c : Thread nD τ) (ms1 m t) fullShare ((dats m 0 c).after 1 t)
    ∗ owns (c : Thread nD τ) (ms2 m t) fullShare ((dats m 0 c).after 2 t)
    ∗ owns (c : Thread nD τ) (ms3 m t) fullShare ((dats m 0 c).after 3 t)
    ∗ owns (c : Thread nD τ) (ms4 m t) fullShare ((dats m 0 c).after 4 t)
    ∗ owns (c : Thread nD τ) (ms5 m t) fullShare ((dats m 0 c).after 5 t))

theorem sound_body (c : Dev nD) (t : Fin (cfgM m).N) :
    bodyPre m c t ⊢ wp frame (wpE (defs₀ (F := F)) Variants.none c none) Set.univ (bodyAt m t) (fun _ => bodyPost m c t) := by
  unfold bodyPre bodyPost bodyAt
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5]
  rw [show (dats m 0 c).Φ t.castSucc = iprop(Pipeline.ΦA spec0 c ∗ Pipeline.ΦT pre0 (counts m) c) from rfl, tables_eq]
  unfold resultAt stored
  iintro ⟨⟨HΦ, HT⟩, Ho, ⟨%d0, H0⟩, ⟨%d1, H1⟩, ⟨%d2, H2⟩, ⟨%d3, H3⟩, ⟨%d4, H4⟩, ⟨%d5, H5⟩⟩
  iapply ((bodyRun c (grid0.coords t) _ _ _ _ _ _ _ _ _ _ _ _ (features m c t) (iblk m c 1 t) (iblk m c 2 t) (iblk m c 3 t)
    (iblk m c 4 t) (counts m 0)).2 Set.univ _)
  isplitl [H0]; · iexact H0
  isplitl [H1]; · iexact H1
  isplitl [H2]; · iexact H2
  isplitl [H3]; · iexact H3
  isplitl [H4]; · iexact H4
  isplitl [H5]; · iexists _; iexact H5
  isplitl [HT]; · iexact HT
  iintro ⟨H0, H1, H2, H3, H4, ⟨%e5, H5⟩, HT⟩
  isplitl [HΦ HT]
  · isplitl [HΦ]
    · iexact HΦ
    iexact HT
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (stores_cover c _ _ _ _ _ _ _ _ _ _ _ _ _ _ _ _ _ _ _)

theorem body_obligation (c : Dev nD) :
    BodyObligation (dats (F := F) m 0 c) (defs₀ (F := F)) Variants.none () Set.univ := fun t => by
  rw [bigSep_W0, bigSep_W0]
  exact sound_body m c t

/-! ## The run -/

set_option backward.isDefEq.respectTransparency.types false in
theorem run_main : θ_run defs (onTc (τ := τ) (main (F := F))) (s₀ m ρ)
    (Pipeline.FramePost (Pipeline.pin pcfgs fun _ => adm m) (dats m) 0 (entry m)) :=
  Pipeline.θ_run_frameP pcfgs (fun _ => adm m) (dats m) (0 : Fin 1) launch0 defs₀ Variants.none m ρ main
    (hbody := fun c => (body_obligation m c).loose) (hshare := fun c => (dats m 0 c).share_full fun _ => rfl)
    (howed := fun _ _ => rfl) (V := entry m) (hmain := hmain m Variants.none) (hA := A_eq m) (hpf := entry_pre m)
    (hΦ := fun _ _ => rfl)

/-- The frame claim: the six argument arrays end as launched. Three are arrays of input windows, two (the unconverted
    weights) bypass the region, and the count table passes through it unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).1 0).trans (((dats m 0 c).arrAt_in 0 rfl _).trans ((A_eq m c 0).trans (entry_arg0 m c))),
     ((h c).2 main_arg1 (by decide : main_arg1 ∈ Pipeline.restRefs sig spec0)).trans (entry_arg1 m c),
     ((h c).1 2).trans (((dats m 0 c).arrAt_in 2 rfl _).trans ((A_eq m c 2).trans (entry_arg2 m c))),
     ((h c).2 main_arg3 (by decide : main_arg3 ∈ Pipeline.restRefs sig spec0)).trans (entry_arg3 m c),
     ((h c).1 4).trans (((dats m 0 c).arrAt_in 4 rfl _).trans ((A_eq m c 4).trans (entry_arg4 m c))),
     ((h c).2 main_arg5 (by decide : main_arg5 ∈ Pipeline.restRefs sig spec0)).trans (entry_arg5 m c)⟩) (run_main m ρ)

end Cert.KernelIdeal.Region

end
-- ==== Proof.StoredValue.lean ====
/-
  The value of the body's one store, as the pure function the kernel computes of the five blocks it loads and the eight
  count words it reads: each load through the whole-buffer rectangle reads the buffer's contents, each word load reads
  the table at offset 8·(point) + r.
-/
import proofs.«431472_j57131654971429_3_alg».proof.Proof.RegionFrame
import Idealize.ShloMosaic.Lib.Pipeline.Value

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem zeros3 : (![0, 0, 0] : Fin 3 → Nat) = fun _ => 0 := funext fun a => by fin_cases a <;> rfl
theorem zeros2 : (![0, 0] : Fin 2 → Nat) = fun _ => 0 := funext fun a => by fin_cases a <;> rfl
theorem zeros1 : (![0] : Fin 1 → Nat) = fun _ => 0 := funext fun a => by fin_cases a <;> rfl

/-- The r-th count word the body reads at grid coordinates `i`, from table contents `xt`: the one element of the
    one-word rectangle at the offset the kernel computes, 8·i + r. -/
def wordAt (c : Dev nD) (i : grid0.Coords) (xt : TbBuf (F := F) c countsM) (r : Fin 8) : Elt F .i32 :=
  View.ld (View.read (Elt F) (View.whole main_arg5) xt)
    (Rect.unit (s := S64) (k0_off1 i (BitVec.ofNat 32 r.val)) S1.size (k0_off1_inb i r))
    (Shape.Idx.first (numel1_S1.symm ▸ Nat.one_pos))

/-- What the body leaves in the result buffer is the kernel's stored value of what its loads read. -/
theorem stored_eq (c : Dev nD) (i : grid0.Coords)
    (a2 : Memref sig .tc .vmem S8x128x3136 .f32) (h2 : a2.IsWhole) (a3 : Memref sig .tc .vmem S3136x64 .bf16) (h3 : a3.IsWhole)
    (a4 : Memref sig .tc .vmem S64 .f32) (h4 : a4.IsWhole) (a5 : Memref sig .tc .vmem S64x21 .bf16) (h5 : a5.IsWhole)
    (a6 : Memref sig .tc .vmem S21 .f32) (h6 : a6.IsWhole) (a7 : Memref sig .tc .vmem S8x128x21 .f32) (h7 : a7.IsWhole)
    (x2 : Vec F S8x128x3136 .f32) (x3 : Vec F S3136x64 .bf16) (x4 : Vec F S64 .f32) (x5 : Vec F S64x21 .bf16) (x6 : Vec F S21 .f32)
    (xt : TbBuf (F := F) c countsM) :
    stored c i a2 h2 a3 h3 a4 h4 a5 h5 a6 h6 a7 h7 x2 x3 x4 x5 x6 xt
      = k0_pay1 (k0_pay2 x2 x3 x4 x5 x6) (iota .tc S8x128x21 32 [1] Facts₀.iota_S8x128x21_d1_w32)
          (wordAt c i xt 0) (wordAt c i xt 1) (wordAt c i xt 2) (wordAt c i xt 3)
          (wordAt c i xt 4) (wordAt c i xt 5) (wordAt c i xt 6) (wordAt c i xt 7) := by
  unfold stored
  rw [View.read_writes_eq_canon _ _ _ (stores_cover c i a2 h2 a3 h3 a4 h4 a5 h5 a6 h6 a7 h7 x2 x3 x4 x5 x6 xt)]
  unfold bodyRun
  dsimp only
  sl_unfold_words
  rw [View.canon_unit_zero zeros3]
  simp only [View.readAt_eq_ld, h2.read_unread, h3.read_unread, h4.read_unread, h5.read_unread, h6.read_unread,
    View.ld_unit_zero (S := S8x128x3136) zeros3, View.ld_unit_zero (S := S3136x64) zeros2, View.ld_unit_zero (S := S64x21) zeros2,
    View.ld_unit_zero (S := S64) zeros1, View.ld_unit_zero (S := S21) zeros1]
  rfl

end Cert.KernelIdeal.Region

end
-- ==== Proof.HeadSpec.lean ====
/-
  The classifier head, as one function of the argument arrays over the extended reals.

  For batch entry b, region s (of the first 128 regions of interest) and class k the result is

      keep(b, s) ?  act( Σ_h act( Σ_f x[b, s, f] · W1[f, h] + b1[h] ) · W2[h, k] + b2[k] )  :  0

  where act z = z if z ≥ 0 and slope · z otherwise, slope being the binary32 number nearest one tenth (the same word
  in both programs, so it is never evaluated), and keep(b, s) says that s lies strictly below min(keep_count[b], 128),
  both the minimum and the comparison taken on signed 32-bit words. The two sums are finite sums of products of
  extended reals; nothing below uses a law of the extended reals beyond the commutative monoid structure of +,
  so no finiteness assumption on the inputs is needed to join the two programs.

  The function is factored through one ROW: `cell` takes the 3136 features of one region as a function of the
  feature index, and the limit word of its batch entry. A block of eight batch entries and the whole array are both
  read through it.
-/
import Idealize.ShloMosaic.PureOps.Ideal
import Idealize.ShloMosaic.Lib.ValueIdx

noncomputable section

namespace Cert.RoiHead

open Idealize.ShloMosaic Idealize.ShloMosaic.ValueIdx

/-- The array shapes of the statement. -/
abbrev SX : Shape := ⟨3, ![64, 300, 3136]⟩
abbrev SW1 : Shape := ⟨2, ![3136, 64]⟩
abbrev SB1 : Shape := ⟨1, ![64]⟩
abbrev SW2 : Shape := ⟨2, ![64, 21]⟩
abbrev SB2 : Shape := ⟨1, ![21]⟩
abbrev SKC : Shape := ⟨1, ![64]⟩
abbrev SOut : Shape := ⟨3, ![64, 128, 21]⟩

/-- The activation: the identity on the nonnegative half line, multiplication by the slope word's value elsewhere.
    The comparison is the ordered `≥` of extended reals against the zero word's value. -/
def act (z : EReal) : EReal :=
  Scalar.select (Ideal.cmp .oge z (Ideal.ofBits .f32 0x00000000#32)) z (Ideal.ofBits .f32 0x3DCCCCCD#32 * z)

/-- One hidden unit of one region: the activation of the affine form of the region's features. -/
def hiddenUnit (row : Fin 3136 → EReal) (W1 : SW1.Idx → EReal) (b1 : SB1.Idx → EReal) (h : Fin 64) : EReal :=
  act ((∑ f : Fin 3136, row f * W1 (ix2 f h)) + b1 (ix1 h))

/-- One class score of one region: the activation of the affine form of the region's hidden units. -/
def score (row : Fin 3136 → EReal) (W1 : SW1.Idx → EReal) (b1 : SB1.Idx → EReal) (W2 : SW2.Idx → EReal)
    (b2 : SB2.Idx → EReal) (k : Fin 21) : EReal :=
  act ((∑ h : Fin 64, hiddenUnit row W1 b1 h * W2 (ix2 h k)) + b2 (ix1 k))

/-- Whether region `s` of a batch entry whose count word is `limit` is kept: `s < min(limit, 128)`, signed. -/
def kept (limit : BitVec 32) (s : Fin 128) : BitVec 1 :=
  IntOp.cmpi .slt (BitVec.ofNat 32 s.val) (IntOp.minsi limit 128#32)

/-- One entry of the result: the region's class score where the region is kept, the zero word's value elsewhere. -/
def cell (row : Fin 3136 → EReal) (W1 : SW1.Idx → EReal) (b1 : SB1.Idx → EReal) (W2 : SW2.Idx → EReal)
    (b2 : SB2.Idx → EReal) (limit : BitVec 32) (s : Fin 128) (k : Fin 21) : EReal :=
  Scalar.select (kept limit s) (score row W1 b1 W2 b2 k) (Ideal.ofBits .f32 0x00000000#32)

/-- Region `s < 128` as a region of the full axis of 300. -/
def region (s : Fin 128) : Fin 300 := ⟨s.val, Nat.lt_of_lt_of_le s.isLt (by decide)⟩

/-- The features of region `s` of batch entry `b` in the input array. -/
def rowOf (x : SX.Idx → EReal) (b : Fin 64) (s : Fin 128) : Fin 3136 → EReal := fun f => x (ix3 b (region s) f)

/-- The whole result array at explicit coordinates. -/
def headAt (x : SX.Idx → EReal) (W1 : SW1.Idx → EReal) (b1 : SB1.Idx → EReal) (W2 : SW2.Idx → EReal)
    (b2 : SB2.Idx → EReal) (kc : SKC.Idx → BitVec 32) (b : Fin 64) (s : Fin 128) (k : Fin 21) : EReal :=
  cell (rowOf x b s) W1 b1 W2 b2 (kc (ix1 b)) s k

/-- The whole result array. -/
def head (x : SX.Idx → EReal) (W1 : SW1.Idx → EReal) (b1 : SB1.Idx → EReal) (W2 : SW2.Idx → EReal)
    (b2 : SB2.Idx → EReal) (kc : SKC.Idx → BitVec 32) : SOut.Idx → EReal :=
  fun j => headAt x W1 b1 W2 b2 kc (j 0) (j 1) (j 2)

theorem head_ix3 (x : SX.Idx → EReal) (W1 : SW1.Idx → EReal) (b1 : SB1.Idx → EReal) (W2 : SW2.Idx → EReal)
    (b2 : SB2.Idx → EReal) (kc : SKC.Idx → BitVec 32) (b : Fin 64) (s : Fin 128) (k : Fin 21) :
    head x W1 b1 W2 b2 kc (ix3 b s k) = headAt x W1 b1 W2 b2 kc b s k := rfl

end Cert.RoiHead

end
-- ==== Proof.BlockReads.lean ====
/-
  The blocks the body loads, read off the argument arrays (everything at the ideal instance, where a value is an extended
  real and a change of float format is the identity).

  At grid point t the feature buffer holds batch entries 8t … 8t+7 of the input, regions 0 … 127; the weight and bias
  buffers hold the whole weight and bias arrays (the converted weights are the weights); the r-th count word read is the
  count of batch entry 8t + r.
-/
import proofs.«431472_j57131654971429_3_alg».proof.Proof.StoredValue
import proofs.«431472_j57131654971429_3_alg».proof.Proof.HeadSpec
import Idealize.ShloMosaic.Lib.ValueIdx
import Idealize.ShloMosaic.Lib.StableHlo.Run

set_option maxRecDepth 16384

noncomputable section

namespace Cert.KernelIdeal.HeadArray

open Cert.KernelIdeal Cert.KernelIdeal.Gen Cert.KernelIdeal.Region
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (m : (ℓ : Loc nD τ sig) → Buf (Elt Ideal) ℓ) (ρ : Dev nD → PrngReg)

/-- The six argument arrays on a core, as functions of their indices. -/
abbrev argX (c : Dev nD) : S64x300x3136.Idx → EReal := m ((c : Thread nD τ).loc main_arg0)
abbrev argW1 (c : Dev nD) : S3136x64.Idx → EReal := m ((c : Thread nD τ).loc main_arg1)
abbrev argB1 (c : Dev nD) : S64.Idx → EReal := m ((c : Thread nD τ).loc main_arg2)
abbrev argW2 (c : Dev nD) : S64x21.Idx → EReal := m ((c : Thread nD τ).loc main_arg3)
abbrev argB2 (c : Dev nD) : S21.Idx → EReal := m ((c : Thread nD τ).loc main_arg4)
abbrev argKC (c : Dev nD) : S64.Idx → BitVec 32 := m ((c : Thread nD τ).loc main_arg5)

/-- The block indices of the windows, decided over the eight points: the feature and result windows move along the
    batch axis with the point and sit at 0 on the other axes; the weight and bias windows sit at 0. -/
theorem index_facts : ∀ t : Fin grid0.N,
    cc0_transform_0 (grid0.coords t) 0 = t.val ∧ cc0_transform_0 (grid0.coords t) 1 = 0 ∧ cc0_transform_0 (grid0.coords t) 2 = 0
    ∧ cc0_transform_1 (grid0.coords t) 0 = 0 ∧ cc0_transform_1 (grid0.coords t) 1 = 0
    ∧ cc0_transform_2 (grid0.coords t) 0 = 0
    ∧ cc0_transform_3 (grid0.coords t) 0 = 0 ∧ cc0_transform_3 (grid0.coords t) 1 = 0
    ∧ cc0_transform_4 (grid0.coords t) 0 = 0
    ∧ cc0_transform_5 (grid0.coords t) 0 = t.val ∧ cc0_transform_5 (grid0.coords t) 1 = 0 ∧ cc0_transform_5 (grid0.coords t) 2 = 0
    ∧ t.val < 8 ∧ (grid0.coords t 0).val = t.val :=
  (by decide +kernel : ∀ t : Fin grid0.N, _)

/-- Batch entry p of the block at point t. -/
def batchOf (t : Fin (cfgM m).N) (p : Fin 8) : Fin 64 := ⟨8 * t.val + p.val, by have := (index_facts t).2.2.2.2.2.2.2.2.2.2.2.2.1; have := p.isLt; omega⟩

/-- Entry (p, s, f) of the feature buffer at point t is feature f of region s of batch entry 8t + p. -/
theorem features_apply (c : Dev nD) (t : Fin (cfgM m).N) (p : Fin 8) (s : Fin 128) (f : Fin 3136) :
    features m c t (ix3 p s f) = argX m c (ix3 (batchOf m t p) (Cert.RoiHead.region s) f) := by
  have hm : ((cfgM m).win 0).moved ((cfgM m).grid.coords t) (ix3 p s f) = true :=
    (((cfgM m).win 0).moved_iff _ _).mpr fun a => by
      have := (ix3 p s f a).isLt; unfold Window.xsize; rw [clip_none (adm m) t a]; exact this
  unfold features Window.fill
  refine (dif_pos hm).trans ?_
  unfold iblk
  show entry m c main_arg0 ((((cfgM m).win 0).blk t).view.emb _) = _
  rw [entry_arg0]
  obtain ⟨e0, e1, e2, -⟩ := index_facts t
  refine congrArg _ (funext fun a => Fin.ext ?_)
  match a with
  | ⟨0, _⟩ => show cc0_transform_0 (grid0.coords t) 0 * 8 + 1 * p.val = 8 * t.val + p.val; rw [e0]; omega
  | ⟨1, _⟩ => show cc0_transform_0 (grid0.coords t) 1 * 128 + 1 * s.val = s.val; rw [e1]; omega
  | ⟨2, _⟩ => show cc0_transform_0 (grid0.coords t) 2 * 3136 + 1 * f.val = f.val; rw [e2]; omega

/-- At the ideal instance the host's change of format leaves the weights as they are. -/
theorem entry_w1 (c : Dev nD) : (entry m c main_v0 : S3136x64.Idx → EReal) = argW1 m c := by
  dsimp only [entry, hostOps0]; after_results; rfl
theorem entry_w2 (c : Dev nD) : (entry m c main_v1 : S64x21.Idx → EReal) = argW2 m c := by
  dsimp only [entry, hostOps0]; after_results; rfl

/-- The weight and bias buffers hold the whole arrays at every point: their windows' one block is the array. -/
theorem weights1_eq (c : Dev nD) (t : Fin (cfgM m).N) : (iblk m c 1 t : S3136x64.Idx → EReal) = argW1 m c := by
  refine funext fun (j : S3136x64.Idx) => ?_
  unfold iblk
  show entry m c main_v0 ((((cfgM m).win 1).blk t).view.emb j) = _
  obtain ⟨-, -, -, e3, e4, -⟩ := index_facts t
  have hj : (((cfgM m).win 1).blk t).view.emb j = j := by
    funext a; apply Fin.ext
    match a with
    | ⟨0, _⟩ => show cc0_transform_1 (grid0.coords t) 0 * 3136 + 1 * (j 0).val = (j 0).val; rw [e3]; omega
    | ⟨1, _⟩ => show cc0_transform_1 (grid0.coords t) 1 * 64 + 1 * (j 1).val = (j 1).val; rw [e4]; omega
  rw [hj]
  exact congrFun (entry_w1 m c) j

theorem bias1_eq (c : Dev nD) (t : Fin (cfgM m).N) : (iblk m c 2 t : S64.Idx → EReal) = argB1 m c := by
  refine funext fun (j : S64.Idx) => ?_
  unfold iblk
  show entry m c main_arg2 ((((cfgM m).win 2).blk t).view.emb j) = _
  obtain ⟨-, -, -, -, -, e5, -⟩ := index_facts t
  have hj : (((cfgM m).win 2).blk t).view.emb j = j := by
    funext a; apply Fin.ext
    match a with
    | ⟨0, _⟩ => show cc0_transform_2 (grid0.coords t) 0 * 64 + 1 * (j 0).val = (j 0).val; rw [e5]; omega
  rw [hj, entry_arg2]

theorem weights2_eq (c : Dev nD) (t : Fin (cfgM m).N) : (iblk m c 3 t : S64x21.Idx → EReal) = argW2 m c := by
  refine funext fun (j : S64x21.Idx) => ?_
  unfold iblk
  show entry m c main_v1 ((((cfgM m).win 3).blk t).view.emb j) = _
  obtain ⟨-, -, -, -, -, -, e6, e7, -⟩ := index_facts t
  have hj : (((cfgM m).win 3).blk t).view.emb j = j := by
    funext a; apply Fin.ext
    match a with
    | ⟨0, _⟩ => show cc0_transform_3 (grid0.coords t) 0 * 64 + 1 * (j 0).val = (j 0).val; rw [e6]; omega
    | ⟨1, _⟩ => show cc0_transform_3 (grid0.coords t) 1 * 21 + 1 * (j 1).val = (j 1).val; rw [e7]; omega
  rw [hj]
  exact congrFun (entry_w2 m c) j

theorem bias2_eq (c : Dev nD) (t : Fin (cfgM m).N) : (iblk m c 4 t : S21.Idx → EReal) = argB2 m c := by
  refine funext fun (j : S21.Idx) => ?_
  unfold iblk
  show entry m c main_arg4 ((((cfgM m).win 4).blk t).view.emb j) = _
  obtain ⟨-, -, -, -, -, -, -, -, e8, -⟩ := index_facts t
  have hj : (((cfgM m).win 4).blk t).view.emb j = j := by
    funext a; apply Fin.ext
    match a with
    | ⟨0, _⟩ => show cc0_transform_4 (grid0.coords t) 0 * 21 + 1 * (j 0).val = (j 0).val; rw [e8]; omega
  rw [hj, entry_arg4]

/-- The r-th word the body reads at point t is the count of batch entry 8t + r. -/
theorem word_apply (c : Dev nD) (t : Fin (cfgM m).N) (r : Fin 8) :
    wordAt c (grid0.coords t) (counts m 0) r = argKC m c (ix1 (batchOf m t r)) := by
  obtain rfl : c = 0 := Subsingleton.elim _ _
  have hc : counts m 0 = argKC m 0 := entry_arg5 m 0
  unfold wordAt View.ld
  refine (congrFun (show View.read (Elt Ideal) (View.whole main_arg5) (counts m 0) = argKC m 0 from hc) _).trans ?_
  refine congrArg _ (funext fun a => Fin.ext ?_)
  have hg : (grid0.coords t 0).val = t.val := (index_facts t).2.2.2.2.2.2.2.2.2.2.2.2.2
  match a with
  | ⟨0, _⟩ =>
    show k0_off1 (grid0.coords t) (BitVec.ofNat 32 r.val) 0 + 1 * 0 = 8 * t.val + r.val
    rw [k0_off1_eq]
    show 8 * (grid0.coords t 0).val + r.val + 1 * 0 = _
    omega

end Cert.KernelIdeal.HeadArray

end
-- ==== Proof.HeadBlock.lean ====
/-
  What the kernel's body stores for one block of eight batch entries, entry by entry, is the specification's `cell`
  of the block's rows.

  The body flattens the block's 8 × 128 rows of features to 1024 rows, applies the two affine layers with the
  activation after each (each layer a product into the zero splat plus the bias row copied down the rows), and cuts
  the 1024 rows of scores back into 8 × 128. Row p · 128 + s of the flattened block is row (p, s) of the block in
  both directions, a product read at an entry is the sum over its one contracted axis, and the bias row and the
  activation read entry by entry; so the score term at (p, s, k) is `score` of row (p, s). The mask compares the
  region number s with the smaller of the p-th count word and 128, which is `kept`; the select of the two is `cell`.
-/
import proofs.«431472_j57131654971429_3_alg».proof.Proof.Gen.KernelIdeal.Skeleton
import proofs.«431472_j57131654971429_3_alg».proof.Proof.HeadSpec
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.HeadBlock

open Cert.KernelIdeal Cert.KernelIdeal.Gen Idealize.ShloMosaic Idealize.ShloMosaic.ValueIdx

/-- Row `p * 128 + s` of the flattened block. -/
def flatRow (p : Fin 8) (s : Fin 128) : Fin 1024 := ⟨p.val * 128 + s.val, by have := p.isLt; have := s.isLt; omega⟩

/-- The feature block flattened to 1024 rows reads, at row `p * 128 + s`, row `(p, s)` of the block. -/
theorem flatten_apply {α : Type} (x : S8x128x3136.Idx → α) (h : S8x128x3136.ShapeCasts S1024x3136)
    (p : Fin 8) (s : Fin 128) (f : Fin 3136) :
    shapeCast S1024x3136 x h (ix2 (flatRow p s) f) = x (ix3 p s f) :=
  shapeCast_apply x h _ _ (by
    rw [Shape.rowMajor_val_three, Shape.rowMajor_val_two]
    rfl)

/-- The 1024 rows of scores cut back into eight entries of 128 regions read, at `(p, s, k)`, row `p * 128 + s`. -/
theorem unflatten_apply {α : Type} (x : S1024x21.Idx → α) (h : S1024x21.ShapeCasts S8x128x21)
    (p : Fin 8) (s : Fin 128) (k : Fin 21) :
    shapeCast S8x128x21 x h (ix3 p s k) = x (ix2 (flatRow p s) k) :=
  shapeCast_apply x h _ _ (by
    rw [Shape.rowMajor_val_three, Shape.rowMajor_val_two]
    rfl)

/-- The bias vector as one row, copied down `a` rows, reads the bias at the column. -/
theorem biasRows_apply {α : Type} {a b : ℕ} (v : (⟨1, ![b]⟩ : Shape).Idx → α)
    (h : (⟨1, ![b]⟩ : Shape).ShapeCasts ⟨2, ![1, b]⟩) (h' : (⟨2, ![1, b]⟩ : Shape).Broadcasts ⟨2, ![a, b]⟩)
    (r : Fin a) (c : Fin b) :
    broadcastTo ⟨2, ![a, b]⟩ (shapeCast ⟨2, ![1, b]⟩ v h) h' (ix2 r c) = v (ix1 c) :=
  (broadcastTo_1b_ab_apply _ h' r c).trans (shapeCast_a_1a_apply v h 0 c)

/-- The kernel's activation, as it prints it on a whole vector, read at an index: the specification's `act` of the
    element. -/
theorem act_apply {s : Shape} (v : FVec Ideal s .f32) (i : s.Idx) :
    select (cmpf .oge v (broadcast s (Scalar.ofBits (F := Ideal) .f32 0x00000000#32))) v
        (mulf (broadcast s (Scalar.ofBits (F := Ideal) .f32 0x3DCCCCCD#32)) v) i
      = Cert.RoiHead.act (v i) := rfl

/-! ## The two products read at an index

Each product accumulates into the zero splat, so at `(r, c)` it is the sum over the one contracted axis of the
operands' products; the contraction index of the dimension numbers is re-indexed to the axis's own coordinate. The
four coordinate facts of each record come first, each at a literal axis. -/

theorem lhs_first_0 (i : S1024x64.Idx) (q : dot_S1024x3136_S3136x64_S1024x64_1_0_0_1_n_n.contr.Idx) :
    (dot_S1024x3136_S3136x64_S1024x64_1_0_0_1_n_n.lhsIdx i q 0).val = (i 0).val := by
  unfold DotDims.lhsIdx
  rw [dif_neg (show ¬(0 : Fin S1024x3136.rank) ∈ dot_S1024x3136_S3136x64_S1024x64_1_0_0_1_n_n.lhsBatch by decide), dif_pos (show (0 : Fin S1024x3136.rank) ∈ dot_S1024x3136_S3136x64_S1024x64_1_0_0_1_n_n.lhsNonContracting by decide)]
  rfl
theorem lhs_first_1 (i : S1024x64.Idx) (q : dot_S1024x3136_S3136x64_S1024x64_1_0_0_1_n_n.contr.Idx) :
    (dot_S1024x3136_S3136x64_S1024x64_1_0_0_1_n_n.lhsIdx i q 1).val = (q ⟨0, by decide⟩).val :=
  dot_S1024x3136_S3136x64_S1024x64_1_0_0_1_n_n.lhsIdx_val_of_single rfl i q
theorem rhs_first_0 (i : S1024x64.Idx) (q : dot_S1024x3136_S3136x64_S1024x64_1_0_0_1_n_n.contr.Idx) :
    (dot_S1024x3136_S3136x64_S1024x64_1_0_0_1_n_n.rhsIdx i q 0).val = (q ⟨0, by decide⟩).val :=
  dot_S1024x3136_S3136x64_S1024x64_1_0_0_1_n_n.rhsIdx_val_of_single rfl i q
theorem rhs_first_1 (i : S1024x64.Idx) (q : dot_S1024x3136_S3136x64_S1024x64_1_0_0_1_n_n.contr.Idx) :
    (dot_S1024x3136_S3136x64_S1024x64_1_0_0_1_n_n.rhsIdx i q 1).val = (i 1).val := by
  unfold DotDims.rhsIdx
  rw [dif_neg (show ¬(1 : Fin S3136x64.rank) ∈ dot_S1024x3136_S3136x64_S1024x64_1_0_0_1_n_n.rhsBatch by decide), dif_pos (show (1 : Fin S3136x64.rank) ∈ dot_S1024x3136_S3136x64_S1024x64_1_0_0_1_n_n.rhsNonContracting by decide)]
  rfl

/-- The first product at `(r, h)`: the sum over the 3136 features. -/
theorem matmul_first_apply (A : FVec Ideal S1024x3136 .bf16) (B : FVec Ideal S3136x64 .bf16) (r : Fin 1024) (c : Fin 64) :
    matmul dot_S1024x3136_S3136x64_S1024x64_1_0_0_1_n_n none A B (constant (F := Ideal) S1024x64 .f32 0x00000000#32) (ix2 r c)
      = ∑ k : Fin 3136, A (ix2 r k) * B (ix2 k c) := by
  refine (Ideal.matmul_constant_zero_apply dot_S1024x3136_S3136x64_S1024x64_1_0_0_1_n_n none A B (ix2 r c)).trans ?_
  rw [← Equiv.sum_comp (contrEquiv1 dot_S1024x3136_S3136x64_S1024x64_1_0_0_1_n_n 3136 rfl rfl).symm]
  refine Finset.sum_congr rfl fun k _ => ?_
  have hk := contrEquiv1_symm_val dot_S1024x3136_S3136x64_S1024x64_1_0_0_1_n_n 3136 rfl rfl k
  have el : dot_S1024x3136_S3136x64_S1024x64_1_0_0_1_n_n.lhsIdx (ix2 r c) ((contrEquiv1 dot_S1024x3136_S3136x64_S1024x64_1_0_0_1_n_n 3136 rfl rfl).symm k) = ix2 r k := funext fun a => Fin.ext (by
    match a with
    | ⟨0, _⟩ => exact lhs_first_0 _ _
    | ⟨1, _⟩ => exact (lhs_first_1 _ _).trans hk)
  have er : dot_S1024x3136_S3136x64_S1024x64_1_0_0_1_n_n.rhsIdx (ix2 r c) ((contrEquiv1 dot_S1024x3136_S3136x64_S1024x64_1_0_0_1_n_n 3136 rfl rfl).symm k) = ix2 k c := funext fun a => Fin.ext (by
    match a with
    | ⟨0, _⟩ => exact (rhs_first_0 _ _).trans hk
    | ⟨1, _⟩ => exact rhs_first_1 _ _)
  rw [el, er]

theorem lhs_second_0 (i : S1024x21.Idx) (q : dot_S1024x64_S64x21_S1024x21_1_0_0_1_n_n.contr.Idx) :
    (dot_S1024x64_S64x21_S1024x21_1_0_0_1_n_n.lhsIdx i q 0).val = (i 0).val := by
  unfold DotDims.lhsIdx
  rw [dif_neg (show ¬(0 : Fin S1024x64.rank) ∈ dot_S1024x64_S64x21_S1024x21_1_0_0_1_n_n.lhsBatch by decide), dif_pos (show (0 : Fin S1024x64.rank) ∈ dot_S1024x64_S64x21_S1024x21_1_0_0_1_n_n.lhsNonContracting by decide)]
  rfl
theorem lhs_second_1 (i : S1024x21.Idx) (q : dot_S1024x64_S64x21_S1024x21_1_0_0_1_n_n.contr.Idx) :
    (dot_S1024x64_S64x21_S1024x21_1_0_0_1_n_n.lhsIdx i q 1).val = (q ⟨0, by decide⟩).val :=
  dot_S1024x64_S64x21_S1024x21_1_0_0_1_n_n.lhsIdx_val_of_single rfl i q
theorem rhs_second_0 (i : S1024x21.Idx) (q : dot_S1024x64_S64x21_S1024x21_1_0_0_1_n_n.contr.Idx) :
    (dot_S1024x64_S64x21_S1024x21_1_0_0_1_n_n.rhsIdx i q 0).val = (q ⟨0, by decide⟩).val :=
  dot_S1024x64_S64x21_S1024x21_1_0_0_1_n_n.rhsIdx_val_of_single rfl i q
theorem rhs_second_1 (i : S1024x21.Idx) (q : dot_S1024x64_S64x21_S1024x21_1_0_0_1_n_n.contr.Idx) :
    (dot_S1024x64_S64x21_S1024x21_1_0_0_1_n_n.rhsIdx i q 1).val = (i 1).val := by
  unfold DotDims.rhsIdx
  rw [dif_neg (show ¬(1 : Fin S64x21.rank) ∈ dot_S1024x64_S64x21_S1024x21_1_0_0_1_n_n.rhsBatch by decide), dif_pos (show (1 : Fin S64x21.rank) ∈ dot_S1024x64_S64x21_S1024x21_1_0_0_1_n_n.rhsNonContracting by decide)]
  rfl

/-- The second product at `(r, k)`: the sum over the 64 hidden units. -/
theorem matmul_second_apply (A : FVec Ideal S1024x64 .bf16) (B : FVec Ideal S64x21 .bf16) (r : Fin 1024) (c : Fin 21) :
    matmul dot_S1024x64_S64x21_S1024x21_1_0_0_1_n_n none A B (constant (F := Ideal) S1024x21 .f32 0x00000000#32) (ix2 r c)
      = ∑ k : Fin 64, A (ix2 r k) * B (ix2 k c) := by
  refine (Ideal.matmul_constant_zero_apply dot_S1024x64_S64x21_S1024x21_1_0_0_1_n_n none A B (ix2 r c)).trans ?_
  rw [← Equiv.sum_comp (contrEquiv1 dot_S1024x64_S64x21_S1024x21_1_0_0_1_n_n 64 rfl rfl).symm]
  refine Finset.sum_congr rfl fun k _ => ?_
  have hk := contrEquiv1_symm_val dot_S1024x64_S64x21_S1024x21_1_0_0_1_n_n 64 rfl rfl k
  have el : dot_S1024x64_S64x21_S1024x21_1_0_0_1_n_n.lhsIdx (ix2 r c) ((contrEquiv1 dot_S1024x64_S64x21_S1024x21_1_0_0_1_n_n 64 rfl rfl).symm k) = ix2 r k := funext fun a => Fin.ext (by
    match a with
    | ⟨0, _⟩ => exact lhs_second_0 _ _
    | ⟨1, _⟩ => exact (lhs_second_1 _ _).trans hk)
  have er : dot_S1024x64_S64x21_S1024x21_1_0_0_1_n_n.rhsIdx (ix2 r c) ((contrEquiv1 dot_S1024x64_S64x21_S1024x21_1_0_0_1_n_n 64 rfl rfl).symm k) = ix2 k c := funext fun a => Fin.ext (by
    match a with
    | ⟨0, _⟩ => exact (rhs_second_0 _ _).trans hk
    | ⟨1, _⟩ => exact rhs_second_1 _ _)
  rw [el, er]

/-! ## The score payload at an index -/

/-- The body's score term — both layers on the flattened block, cut back into eight entries — read at `(p, s, k)`: the
    specification's `score` of row `(p, s)` of the feature block. -/
theorem score_payload_apply (X : Vec Ideal S8x128x3136 .f32) (Wa : Vec Ideal S3136x64 .bf16) (B1 : Vec Ideal S64 .f32)
    (Wb : Vec Ideal S64x21 .bf16) (B2 : Vec Ideal S21 .f32) (p : Fin 8) (s : Fin 128) (k : Fin 21) :
    k0_pay2 (F := Ideal) X Wa B1 Wb B2 (ix3 p s k)
      = Cert.RoiHead.score (fun f => X (ix3 p s f)) Wa B1 Wb B2 k := by
  unfold k0_pay2
  refine (unflatten_apply _ _ p s k).trans ?_
  refine (act_apply _ _).trans ?_
  unfold Cert.RoiHead.score
  refine congrArg Cert.RoiHead.act ?_
  refine (addf_apply _ _ _).trans ?_
  refine congrArg₂ (· + ·) ?_ (biasRows_apply B2 _ _ (flatRow p s) k)
  refine (matmul_second_apply _ _ (flatRow p s) k).trans ?_
  refine Finset.sum_congr rfl fun h _ => ?_
  refine congrArg₂ (· * ·) ?_ (congrFun (shapeCast_self Wb _) (ix2 h k))
  refine (truncf_apply (φ := .f32) (ψ := .bf16) _ bitsLt_bf16_f32 _).trans ?_
  refine (act_apply _ _).trans ?_
  unfold Cert.RoiHead.hiddenUnit
  refine congrArg Cert.RoiHead.act ?_
  refine (addf_apply _ _ _).trans ?_
  refine congrArg₂ (· + ·) ?_ (biasRows_apply B1 _ _ (flatRow p s) h)
  refine (matmul_first_apply _ _ (flatRow p s) h).trans ?_
  refine Finset.sum_congr rfl fun f _ => ?_
  exact congrArg₂ (· * ·) ((truncf_apply (φ := .f32) (ψ := .bf16) _ bitsLt_bf16_f32 _).trans (flatten_apply _ _ p s f)) (congrFun (shapeCast_self Wa _) (ix2 f h))

/-! ## The mask at an index -/

/-- Eight one-element vectors laid end to end read, at `p`, the `p`-th word. -/
theorem words_apply (w : Fin 8 → BitVec 32) (h : Shape.Concatenates [S1, S1, S1, S1, S1, S1, S1, S1] S8 0) (p : Fin 8) :
    concatenate S8 0 [⟨S1, broadcast S1 (w 0)⟩, ⟨S1, broadcast S1 (w 1)⟩, ⟨S1, broadcast S1 (w 2)⟩, ⟨S1, broadcast S1 (w 3)⟩,
        ⟨S1, broadcast S1 (w 4)⟩, ⟨S1, broadcast S1 (w 5)⟩, ⟨S1, broadcast S1 (w 6)⟩, ⟨S1, broadcast S1 (w 7)⟩] h (ix1 p)
      = w p := by
  fin_cases p <;> rfl

/-- A vector of eight, stood up as a column `[8, 1, 1]` and copied over the regions and classes, reads at `(p, s, k)`
    its `p`-th element. -/
theorem perEntry_apply {α : Type} (v : S8.Idx → α) (h : S8.ShapeCasts S8x1x1) (h' : S8x1x1.Broadcasts S8x128x21)
    (p : Fin 8) (s : Fin 128) (k : Fin 21) :
    broadcastTo S8x128x21 (shapeCast S8x1x1 v h) h' (ix3 p s k) = v (ix1 p) := by
  refine (broadcastTo_apply _ h' (ix3 p s k) (ix3 p (0 : Fin 1) (0 : Fin 1)) fun a => ?_).trans ?_
  · match a with
    | ⟨0, _⟩ => show p.val = if (8 : Nat) = 1 then 0 else p.val; rw [if_neg (by decide)]
    | ⟨1, _⟩ => show 0 = if (1 : Nat) = 1 then 0 else s.val; rw [if_pos rfl]
    | ⟨2, _⟩ => show 0 = if (1 : Nat) = 1 then 0 else k.val; rw [if_pos rfl]
  · refine shapeCast_apply v h _ _ ?_
    rw [Shape.rowMajor_val_one, Shape.rowMajor_val_three]
    show p.val = (p.val * 1 + 0) * 1 + 0
    omega

/-- The region number along axis 1 at `(p, s, k)` is `s` as a 32-bit word. -/
theorem regionIota_apply (h : S8x128x21.Iotas .tc 32 [1]) (p : Fin 8) (s : Fin 128) (k : Fin 21) :
    iota .tc S8x128x21 32 [1] h (ix3 p s k) = BitVec.ofNat 32 s.val :=
  iota_single_apply .tc S8x128x21 32 1 h (ix3 p s k)

/-- The body's mask at `(p, s, k)`: region `s` lies below the smaller of the `p`-th word and 128. -/
theorem mask_apply (w : Fin 8 → BitVec 32) (hi : S8x128x21.Iotas .tc 32 [1])
    (hc : Shape.Concatenates [S1, S1, S1, S1, S1, S1, S1, S1] S8 0) (hs : S8.ShapeCasts S8x1x1)
    (hb : S8x1x1.Broadcasts S8x128x21) (p : Fin 8) (s : Fin 128) (k : Fin 21) :
    cmpi .slt (iota .tc S8x128x21 32 [1] hi)
        (broadcastTo S8x128x21 (shapeCast S8x1x1 (minsi
          (concatenate S8 0 [⟨S1, broadcast S1 (w 0)⟩, ⟨S1, broadcast S1 (w 1)⟩, ⟨S1, broadcast S1 (w 2)⟩, ⟨S1, broadcast S1 (w 3)⟩,
            ⟨S1, broadcast S1 (w 4)⟩, ⟨S1, broadcast S1 (w 5)⟩, ⟨S1, broadcast S1 (w 6)⟩, ⟨S1, broadcast S1 (w 7)⟩] hc)
          (broadcast S8 128#32)) hs) hb) (ix3 p s k)
      = Cert.RoiHead.kept (w p) s :=
  congrArg₂ (IntOp.cmpi .slt) (regionIota_apply hi p s k)
    ((perEntry_apply _ hs hb p s k).trans (congrArg (fun x => IntOp.minsi x 128#32) (words_apply w hc p)))

/-! ## The stored value -/

/-- The stored value of the body, as the pure function of the five loaded blocks and the eight count words that the
    skeleton names, read at entry (p, s, k) of the block: the `cell` of row (p, s) of the feature block, with the
    p-th of the eight words as the limit. -/
theorem block_is_cell (X : Vec Ideal S8x128x3136 .f32) (Wa : Vec Ideal S3136x64 .bf16) (B1 : Vec Ideal S64 .f32)
    (Wb : Vec Ideal S64x21 .bf16) (B2 : Vec Ideal S21 .f32) (w : Fin 8 → BitVec 32) (p : Fin 8) (s : Fin 128) (k : Fin 21) :
    k0_pay1 (F := Ideal) (k0_pay2 (F := Ideal) X Wa B1 Wb B2) (iota .tc S8x128x21 32 [1] Facts₀.iota_S8x128x21_d1_w32)
        (w 0) (w 1) (w 2) (w 3) (w 4) (w 5) (w 6) (w 7) (ix3 p s k)
      = Cert.RoiHead.cell (fun f => X (ix3 p s f)) Wa B1 Wb B2 (w p) s k := by
  unfold k0_pay1
  refine (select_apply _ _ _ _).trans ?_
  exact congrArg₂ (fun c v => Scalar.select c v (Ideal.ofBits .f32 0x00000000#32))
    (mask_apply w _ _ _ _ p s k) (score_payload_apply X Wa B1 Wb B2 p s k)

end Cert.KernelIdeal.HeadBlock

end
-- ==== Proof.HeadArray.lean ====
/-
  The result array after the run is the classifier head of the argument arrays.

  At point t the body stores, at entry (p, s, k) of the result block, the head at batch entry 8t + p, region s, class k:
  the block's stored value is the specification's cell of the feature row (p, s) with the p-th count word (the kernel side
  of the bridge), and the buffers hold the argument arrays' blocks. So what point t writes back is block t of the head
  array; the eight blocks tile the batch axis; hence the array ends holding the head.
-/
import proofs.«431472_j57131654971429_3_alg».proof.Proof.BlockReads
import proofs.«431472_j57131654971429_3_alg».proof.Proof.HeadBlock
import Idealize.ShloMosaic.Lib.Pipeline.Value

set_option maxRecDepth 16384

noncomputable section

namespace Cert.KernelIdeal.HeadArray

open Cert.KernelIdeal Cert.KernelIdeal.Gen Cert.KernelIdeal.Region
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (m : (ℓ : Loc nD τ sig) → Buf (Elt Ideal) ℓ) (ρ : Dev nD → PrngReg)

/-- The head of the six argument arrays on a core. -/
def expected (c : Dev nD) : S64x128x21.Idx → EReal :=
  Cert.RoiHead.head (argX m c) (argW1 m c) (argB1 m c) (argW2 m c) (argB2 m c) (argKC m c)

/-- Entry (p, s, k) of the block stored at point t is the head at batch entry 8t + p. -/
theorem result_apply (c : Dev nD) (t : Fin (cfgM m).N) (p : Fin 8) (s : Fin 128) (k : Fin 21) :
    resultAt m c t (ix3 p s k) = expected m c (ix3 (batchOf m t p) s k) := by
  unfold resultAt
  refine (congrFun (stored_eq c (grid0.coords t) (ms0 m t) (hs0 m t) (ms1 m t) (hs1 m t) (ms2 m t) (hs2 m t) (ms3 m t) (hs3 m t)
    (ms4 m t) (hs4 m t) (ms5 m t) (hs5 m t) (features m c t) (iblk m c 1 t) (iblk m c 2 t) (iblk m c 3 t) (iblk m c 4 t) (counts m 0)) (ix3 p s k)).trans ?_
  refine (Cert.KernelIdeal.HeadBlock.block_is_cell (features m c t) (iblk m c 1 t) (iblk m c 2 t) (iblk m c 3 t) (iblk m c 4 t)
    (fun r => wordAt c (grid0.coords t) (counts m 0) r) p s k).trans ?_
  unfold expected
  rw [Cert.RoiHead.head_ix3]
  unfold Cert.RoiHead.headAt
  have h0 : (fun f => features m c t (ix3 p s f)) = Cert.RoiHead.rowOf (argX m c) (batchOf m t p) s :=
    funext fun f => features_apply m c t p s f
  have h1 : (iblk m c 1 t : S3136x64.Idx → EReal) = argW1 m c := weights1_eq m c t
  have h2 : (iblk m c 2 t : S64.Idx → EReal) = argB1 m c := bias1_eq m c t
  have h3 : (iblk m c 3 t : S64x21.Idx → EReal) = argW2 m c := weights2_eq m c t
  have h4 : (iblk m c 4 t : S21.Idx → EReal) = argB2 m c := bias2_eq m c t
  have h5 : wordAt c (grid0.coords t) (counts m 0) p = argKC m c (ix1 (batchOf m t p)) := word_apply m c t p
  show Cert.RoiHead.cell (fun f => features m c t (ix3 p s f)) (iblk m c 1 t : S3136x64.Idx → EReal) (iblk m c 2 t : S64.Idx → EReal)
      (iblk m c 3 t : S64x21.Idx → EReal) (iblk m c 4 t : S21.Idx → EReal) (wordAt c (grid0.coords t) (counts m 0) p) s k = _
  rw [h0, h1, h2, h3, h4, h5]

/-- What point t writes back is block t of the head array. -/
theorem flushed_eq (c : Dev nD) (t : Fin (cfgM m).N) :
    (dats m 0 c).flushed 5 t = (((cfgM m).win 5).blk t).view.read (Elt Ideal) (expected m c) := by
  show ((cfgM m).win 5).cut ((cfgM m).grid.coords t) ((dats m 0 c).after 5 t) = _
  rw [after5]
  refine funext fun (j : S8x128x21.Idx) => ?_
  obtain ⟨p, s, k, rfl⟩ : ∃ (p : Fin 8) (s : Fin 128) (k : Fin 21), j = ix3 p s k := ⟨j 0, j 1, j 2, eq_ix3 j⟩
  show resultAt m c t (ix3 p s k) = expected m c ((((cfgM m).win 5).blk t).view.emb (ix3 p s k))
  rw [result_apply]
  obtain ⟨-, -, -, -, -, -, -, -, -, e9, e10, e11, -⟩ := index_facts t
  refine congrArg _ (funext fun a => Fin.ext ?_)
  match a with
  | ⟨0, _⟩ => show 8 * t.val + p.val = cc0_transform_5 (grid0.coords t) 0 * 8 + 1 * p.val; rw [e9]; omega
  | ⟨1, _⟩ => show s.val = cc0_transform_5 (grid0.coords t) 1 * 128 + 1 * s.val; rw [e10]; omega
  | ⟨2, _⟩ => show k.val = cc0_transform_5 (grid0.coords t) 2 * 21 + 1 * k.val; rw [e11]; omega

/-- An index of the result array lies in point t's block iff each coordinate lies in the block's range on its axis. -/
theorem mem_block (t : Fin (cfgM m).N) (i : S64x128x21.Idx) :
    i ∈ (((cfgM m).win 5).blk t).view.set ↔ ∀ a : Fin 3, ((cfgM m).win 5).index t a * S8x128x21.size a ≤ (i a).val
      ∧ (i a).val < ((cfgM m).win 5).index t a * S8x128x21.size a + S8x128x21.size a := by
  show i ∈ ((View.whole main_v2).slice (((cfgM m).win 5).rect t)).set ↔ _
  exact (Eq.to_iff (congrArg (fun S => i ∈ S) (View.set_slice_whole main_v2 (((cfgM m).win 5).rect t)))).trans Rect.mem_set_unit

/-- Every index of the result array lies in the block of the point its batch entry belongs to. -/
theorem covered (i : S64x128x21.Idx) :
    ∃ t : Fin (cfgM m).N, ((cfgM m).win 5).flush t = true ∧ i ∈ (((cfgM m).win 5).blk t).view.set := by
  have hi0 : (i 0).val < 64 := (i 0).isLt
  have hi1 : (i 1).val < 128 := (i 1).isLt
  have hi2 : (i 2).val < 21 := (i 2).isLt
  have hN : grid0.N = 8 := N_0
  let t : Fin (cfgM m).N := ⟨(i 0).val / 8, by show (i 0).val / 8 < grid0.N; rw [hN]; omega⟩
  refine ⟨t, flush_out (adm m) t, ?_⟩
  rw [mem_block]
  obtain ⟨-, -, -, -, -, -, -, -, -, e9, e10, e11, -⟩ := index_facts t
  have ht : t.val = (i 0).val / 8 := rfl
  intro a
  match a with
  | ⟨0, _⟩ =>
    show cc0_transform_5 (grid0.coords t) 0 * 8 ≤ (i 0).val ∧ (i 0).val < cc0_transform_5 (grid0.coords t) 0 * 8 + 8
    rw [e9, ht]; omega
  | ⟨1, _⟩ =>
    show cc0_transform_5 (grid0.coords t) 1 * 128 ≤ (i 1).val ∧ (i 1).val < cc0_transform_5 (grid0.coords t) 1 * 128 + 128
    rw [e10]; omega
  | ⟨2, _⟩ =>
    show cc0_transform_5 (grid0.coords t) 2 * 21 ≤ (i 2).val ∧ (i 2).val < cc0_transform_5 (grid0.coords t) 2 * 21 + 21
    rw [e11]; omega

/-- The result array after the run. -/
theorem final (c : Dev nD) : (dats m 0 c).arrAt 5 (cfgM m).N = expected m c :=
  (dats m 0 c).arrAt_eq_of_cover 5 (expected m c) (fun t _ => flushed_eq m c t) (covered m)

/-- The run, read: the result array ends at the head of the arguments, the arguments as launched. -/
theorem run_value : θ_run defs (onTc (τ := τ) (main (F := Ideal))) ⟨m, fun _ => 0, ρ⟩ (fun r => ∀ c : Dev nD,
      r.2.mem ((c.tc : Thread nD τ).loc main_v2) = expected m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).1 5).trans (final m c),
     ((h c).1 0).trans (((dats m 0 c).arrAt_in 0 rfl _).trans ((A_eq m c 0).trans (entry_arg0 m c))),
     ((h c).2 main_arg1 (by decide : main_arg1 ∈ Pipeline.restRefs sig spec0)).trans (entry_arg1 m c),
     ((h c).1 2).trans (((dats m 0 c).arrAt_in 2 rfl _).trans ((A_eq m c 2).trans (entry_arg2 m c))),
     ((h c).2 main_arg3 (by decide : main_arg3 ∈ Pipeline.restRefs sig spec0)).trans (entry_arg3 m c),
     ((h c).1 4).trans (((dats m 0 c).arrAt_in 4 rfl _).trans ((A_eq m c 4).trans (entry_arg4 m c))),
     ((h c).2 main_arg5 (by decide : main_arg5 ∈ Pipeline.restRefs sig spec0)).trans (entry_arg5 m c)⟩) (run_main m ρ)

end Cert.KernelIdeal.HeadArray

end
-- ==== Proof.HeadRef.lean ====
/-
  The reference program's result, index by index, is the classifier head of the specification.
-/
import proofs.«431472_j57131654971429_3_alg».proof.Proof.Gen.ReferenceIdeal.Read
import proofs.«431472_j57131654971429_3_alg».proof.Proof.HeadSpec

noncomputable section

namespace Cert.ReferenceIdeal.HeadRef

open Cert.ReferenceIdeal Cert.ReferenceIdeal.Gen Idealize.ShloMosaic Idealize.ShloMosaic.ValueIdx

open Cert.RoiHead

/-! ## Index equations: the composed index maps of the stages, at explicit coordinates -/

/-- The sliced input read at the left index of the first contraction is the full input at `(b, region s, f)`. -/
theorem idx_slice (b : Fin 64) (s : Fin 128) (h : Fin 64) (f : Fin 3136) :
    Read.idx_main_v0 (Read.lidx_main_v1 (ix3 b s h) f) = ix3 b (region s) f :=
  funext fun a => Fin.ext (by match a with | ⟨0, _⟩ => rfl | ⟨1, _⟩ => rfl | ⟨2, _⟩ => rfl)

/-- The right index of the first contraction is `(f, h)`. -/
theorem idx_w1 (b : Fin 64) (s : Fin 128) (h : Fin 64) (f : Fin 3136) :
    Read.ridx_main_v1 (ix3 b s h) f = ix2 f h :=
  funext fun a => Fin.ext (by match a with | ⟨0, _⟩ => rfl | ⟨1, _⟩ => rfl)

/-- The first bias, broadcast twice, is read at `h`. -/
theorem idx_b1 (b : Fin 64) (s : Fin 128) (h : Fin 64) :
    Read.idx_main_v2 (Read.idx_main_v3 (ix3 b s h)) = ix1 h :=
  funext fun a => Fin.ext (by match a with | ⟨0, _⟩ => rfl)

/-- The left index of the second contraction is `(b, s, h)`. -/
theorem idx_hidden (b : Fin 64) (s : Fin 128) (k : Fin 21) (h : Fin 64) :
    Read.lidx_main_v10 (ix3 b s k) h = ix3 b s h :=
  funext fun a => Fin.ext (by match a with | ⟨0, _⟩ => rfl | ⟨1, _⟩ => rfl | ⟨2, _⟩ => rfl)

/-- The right index of the second contraction is `(h, k)`. -/
theorem idx_w2 (b : Fin 64) (s : Fin 128) (k : Fin 21) (h : Fin 64) :
    Read.ridx_main_v10 (ix3 b s k) h = ix2 h k :=
  funext fun a => Fin.ext (by match a with | ⟨0, _⟩ => rfl | ⟨1, _⟩ => rfl)

/-- The second bias, broadcast twice, is read at `k`. -/
theorem idx_b2 (b : Fin 64) (s : Fin 128) (k : Fin 21) :
    Read.idx_main_v11 (Read.idx_main_v12 (ix3 b s k)) = ix1 k :=
  funext fun a => Fin.ext (by match a with | ⟨0, _⟩ => rfl)

/-- The mask, broadcast along the class axis and the unit axis, is read at `(b, s)`. -/
theorem idx_mask (b : Fin 64) (s : Fin 128) (k : Fin 21) :
    Read.idx_main_v27 (Read.idx_main_call2_v0 (ix3 b s k)) = ix2 b s :=
  funext fun a => Fin.ext (by match a with | ⟨0, _⟩ => rfl | ⟨1, _⟩ => rfl)

/-- The region counter, broadcast along the batch axis, is read at `s`. -/
theorem idx_iota (b : Fin 64) (s : Fin 128) :
    Read.idx_main_v22 (Read.idx_main_v24 (ix2 b s)) = ix1 s :=
  funext fun a => Fin.ext (by match a with | ⟨0, _⟩ => rfl)

/-- The clamped count, broadcast along the region axis, is read at `b`. -/
theorem idx_limit (b : Fin 64) (s : Fin 128) :
    Read.idx_main_v23 (Read.idx_main_v25 (ix2 b s)) = ix1 b :=
  funext fun a => Fin.ext (by match a with | ⟨0, _⟩ => rfl)

/-! ## The activation stages -/

/-- The first activation stage is `act` of the first affine stage, at every index. -/
theorem hidden_is_act (x0 : (⟨S64x300x3136, .f32⟩ : BufTy).Contents (Elt Ideal)) (x1 : (⟨S3136x64, .f32⟩ : BufTy).Contents (Elt Ideal))
    (x2 : (⟨S64, .f32⟩ : BufTy).Contents (Elt Ideal)) (i : S64x128x64.Idx) :
    Read.val_main_v9 (F := Ideal) x0 x1 x2 i = act (Read.val_main_v4 (F := Ideal) x0 x1 x2 i) := by
  rw [Read.val_main_v9_apply, Read.val_main_v6_apply, Read.val_main_v8_apply, Read.val_main_v5_apply, Read.val_main_v7_apply,
    Read.val_main_cst_apply, Read.val_main_cst_0_apply]
  rfl

/-- The second activation stage is `act` of the second affine stage, at every index. -/
theorem score_is_act (x0 : (⟨S64x300x3136, .f32⟩ : BufTy).Contents (Elt Ideal)) (x1 : (⟨S3136x64, .f32⟩ : BufTy).Contents (Elt Ideal))
    (x2 : (⟨S64, .f32⟩ : BufTy).Contents (Elt Ideal)) (x3 : (⟨S64x21, .f32⟩ : BufTy).Contents (Elt Ideal))
    (x4 : (⟨S21, .f32⟩ : BufTy).Contents (Elt Ideal)) (i : S64x128x21.Idx) :
    Read.val_main_v18 (F := Ideal) x0 x1 x2 x3 x4 i = act (Read.val_main_v13 (F := Ideal) x0 x1 x2 x3 x4 i) := by
  rw [Read.val_main_v18_apply, Read.val_main_v15_apply, Read.val_main_v17_apply, Read.val_main_v14_apply, Read.val_main_v16_apply,
    Read.val_main_cst_1_apply, Read.val_main_cst_2_apply]
  rfl

/-! ## The stages at explicit coordinates -/

/-- The first affine stage at `(b, s, h)`: the affine form of the region's features. -/
theorem affine1_at (x0 : (⟨S64x300x3136, .f32⟩ : BufTy).Contents (Elt Ideal)) (x1 : (⟨S3136x64, .f32⟩ : BufTy).Contents (Elt Ideal))
    (x2 : (⟨S64, .f32⟩ : BufTy).Contents (Elt Ideal)) (b : Fin 64) (s : Fin 128) (h : Fin 64) :
    Read.val_main_v4 (F := Ideal) x0 x1 x2 (ix3 b s h)
      = (∑ f : Fin 3136, rowOf x0 b s f * x1 (ix2 f h)) + x2 (ix1 h) := by
  rw [Read.val_main_v4_apply, Read.val_main_v1_apply, Read.val_main_v3_apply, Read.val_main_v2_apply, idx_b1]
  simp only [Read.val_main_v0_apply, idx_slice, idx_w1]
  rfl

/-- The hidden layer at `(b, s, h)`. -/
theorem hidden_at (x0 : (⟨S64x300x3136, .f32⟩ : BufTy).Contents (Elt Ideal)) (x1 : (⟨S3136x64, .f32⟩ : BufTy).Contents (Elt Ideal))
    (x2 : (⟨S64, .f32⟩ : BufTy).Contents (Elt Ideal)) (b : Fin 64) (s : Fin 128) (h : Fin 64) :
    Read.val_main_v9 (F := Ideal) x0 x1 x2 (ix3 b s h) = hiddenUnit (rowOf x0 b s) x1 x2 h := by
  rw [hidden_is_act, affine1_at]
  rfl

/-- The second affine stage at `(b, s, k)`: the affine form of the region's hidden units. -/
theorem affine2_at (x0 : (⟨S64x300x3136, .f32⟩ : BufTy).Contents (Elt Ideal)) (x1 : (⟨S3136x64, .f32⟩ : BufTy).Contents (Elt Ideal))
    (x2 : (⟨S64, .f32⟩ : BufTy).Contents (Elt Ideal)) (x3 : (⟨S64x21, .f32⟩ : BufTy).Contents (Elt Ideal))
    (x4 : (⟨S21, .f32⟩ : BufTy).Contents (Elt Ideal)) (b : Fin 64) (s : Fin 128) (k : Fin 21) :
    Read.val_main_v13 (F := Ideal) x0 x1 x2 x3 x4 (ix3 b s k)
      = (∑ h : Fin 64, hiddenUnit (rowOf x0 b s) x1 x2 h * x3 (ix2 h k)) + x4 (ix1 k) := by
  rw [Read.val_main_v13_apply, Read.val_main_v10_apply, Read.val_main_v12_apply, Read.val_main_v11_apply, idx_b2]
  simp only [idx_hidden, idx_w2, hidden_at]
  rfl

/-- The score at `(b, s, k)`. -/
theorem score_at (x0 : (⟨S64x300x3136, .f32⟩ : BufTy).Contents (Elt Ideal)) (x1 : (⟨S3136x64, .f32⟩ : BufTy).Contents (Elt Ideal))
    (x2 : (⟨S64, .f32⟩ : BufTy).Contents (Elt Ideal)) (x3 : (⟨S64x21, .f32⟩ : BufTy).Contents (Elt Ideal))
    (x4 : (⟨S21, .f32⟩ : BufTy).Contents (Elt Ideal)) (b : Fin 64) (s : Fin 128) (k : Fin 21) :
    Read.val_main_v18 (F := Ideal) x0 x1 x2 x3 x4 (ix3 b s k) = score (rowOf x0 b s) x1 x2 x3 x4 k := by
  rw [score_is_act, affine2_at]
  rfl

/-- The mask at `(b, s, k)`: region `s` is kept under the count word of batch entry `b`. -/
theorem mask_at (x5 : (⟨S64, .i32⟩ : BufTy).Contents (Elt Ideal)) (b : Fin 64) (s : Fin 128) (k : Fin 21) :
    Read.val_main_call2_v0 (F := Ideal) x5 (ix3 b s k) = kept (x5 (ix1 b)) s := by
  rw [Read.val_main_call2_v0_apply, Read.val_main_v27_apply, idx_mask, Read.val_main_v26_apply, Read.val_main_v24_apply,
    Read.val_main_v22_apply, idx_iota, Read.val_main_v21_apply, Read.val_main_v25_apply, Read.val_main_v23_apply, idx_limit,
    Read.val_main_v20_apply, Read.val_main_v19_apply, Read.val_main_c_apply]
  rfl

/-- The zero array of the last selection, at every index. -/
theorem zero_at (i : S64x128x21.Idx) :
    Read.val_main_call2_v1 (F := Ideal) i = Ideal.ofBits .f32 0x00000000#32 := by
  rw [Read.val_main_call2_v1_apply, Read.val_main_cst_3_apply]
  rfl
/-- The last stage of the reference, as a function of the six argument arrays, is `head` of them. -/
theorem reference_is_head (x0 : (⟨S64x300x3136, .f32⟩ : BufTy).Contents (Elt Ideal)) (x1 : (⟨S3136x64, .f32⟩ : BufTy).Contents (Elt Ideal))
    (x2 : (⟨S64, .f32⟩ : BufTy).Contents (Elt Ideal)) (x3 : (⟨S64x21, .f32⟩ : BufTy).Contents (Elt Ideal))
    (x4 : (⟨S21, .f32⟩ : BufTy).Contents (Elt Ideal)) (x5 : (⟨S64, .i32⟩ : BufTy).Contents (Elt Ideal)) :
    Cert.ReferenceIdeal.Read.val_main_v28 (F := Ideal) x0 x1 x2 x3 x4 x5 = Cert.RoiHead.head x0 x1 x2 x3 x4 x5 := by
  funext j
  obtain ⟨b, s, k, rfl⟩ : ∃ (b : Fin 64) (s : Fin 128) (k : Fin 21), j = ix3 b s k := ⟨j 0, j 1, j 2, eq_ix3 j⟩
  rw [head_ix3, Read.val_main_v28_apply, mask_at, score_at, zero_at]
  rfl

end Cert.ReferenceIdeal.HeadRef

end
-- ==== Proof.lean ====
/-
  The certificate: a per-region two-layer classifier head computed by one pipelined kernel over blocks of eight batch
  entries, against its plain array reference.

  Both programs compute, for batch entry b, region s of the first 128 and class k,
      keep(b, s) ?  act( Σ_h act( Σ_f x[b, s, f] · W1[f, h] + b1[h] ) · W2[h, k] + b2[k] )  :  0
  with act the rectifier of slope the binary32 word nearest one tenth and keep(b, s) = (s < min(keep_count[b], 128)) on
  signed words (Proof/HeadSpec.lean). Over the extended reals the kernel's reduced-precision casts are the identity, its
  matrix products into a zero accumulator and the reference's contractions are the same finite sums, and the literals
  are the same words on both sides, so the two results are one function of the arguments, entry by entry; no law
  that needs finite inputs is used.

  The three frames: the kernel at the word level and at the ideal level runs as a pipeline over eight grid points whose
  body loads five blocks and eight count words and stores one block (Proof/RegionFrame.lean, and its word-level copy);
  the reference is a straight line of host operations. The idealization rewrote nothing, so the preservation claim is
  empty. The value claim: the kernel's result array ends at the head of the arguments (Proof/HeadArray.lean), and so does
  the reference's (Proof/HeadRef.lean).
-/
import proofs.«431472_j57131654971429_3_alg».proof.Defs
import proofs.«431472_j57131654971429_3_alg».proof.Proof.Gen.Kernel
import proofs.«431472_j57131654971429_3_alg».proof.Proof.Gen.Kernel.Skeleton
import proofs.«431472_j57131654971429_3_alg».proof.Proof.Gen.Kernel.Launch
import proofs.«431472_j57131654971429_3_alg».proof.Proof.Gen.Kernel.Flash
import proofs.«431472_j57131654971429_3_alg».proof.Proof.Gen.KernelIdeal
import proofs.«431472_j57131654971429_3_alg».proof.Proof.Gen.KernelIdeal.Skeleton
import proofs.«431472_j57131654971429_3_alg».proof.Proof.Gen.KernelIdeal.Launch
import proofs.«431472_j57131654971429_3_alg».proof.Proof.Gen.KernelIdeal.Flash
import proofs.«431472_j57131654971429_3_alg».proof.Proof.Gen.ReferenceIdeal
import proofs.«431472_j57131654971429_3_alg».proof.Proof.Gen.ReferenceIdeal.Run
import proofs.«431472_j57131654971429_3_alg».proof.Proof.Gen.ReferenceIdeal.Read
import proofs.«431472_j57131654971429_3_alg».proof.Proof.Gen.Pre_finite_inputs
import proofs.«431472_j57131654971429_3_alg».proof.Proof.WordRegionFrame
import proofs.«431472_j57131654971429_3_alg».proof.Proof.HeadArray
import proofs.«431472_j57131654971429_3_alg».proof.Proof.HeadRef
import Idealize.ShloMosaic.Adequacy
import Idealize.ShloMosaic.Init

noncomputable section

namespace Cert.Proof

open Idealize.ShloMosaic Idealize.SL.Sem

theorem frame_word : Cert.frame_Kernel := fun m ρ _ => Cert.Kernel.Region.frame m ρ

theorem frame_ideal : Cert.frame_KernelIdeal := fun m ρ _ => Cert.KernelIdeal.Region.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the head of the arguments in their result array; the arguments agree, so the results do. -/
theorem algebraic : Cert.algebraic_KernelIdeal_ReferenceIdeal := by
  intro m ρ m' ρ' _ hagree
  refine ⟨fun c => Cert.KernelIdeal.HeadArray.expected m c, Cert.KernelIdeal.HeadArray.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq, Cert.ReferenceIdeal.HeadRef.reference_is_head,
    (hagree c).1, (hagree c).2.1, (hagree c).2.2.1, (hagree c).2.2.2.1, (hagree c).2.2.2.2.1, (hagree c).2.2.2.2.2]
  rfl

theorem claim : Cert.Claim :=
  ⟨Cert.Kernel.Gen.facts, Cert.KernelIdeal.Gen.facts, Cert.ReferenceIdeal.Gen.facts, Cert.Pre_finite_inputs.Gen.facts,
    frame_word, frame_ideal, frame_reference, preserves, algebraic⟩

end Cert.Proof

end
